-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S500000x32 : Shape := ⟨2, ![500000, 32]⟩
abbrev S2x500000 : Shape := ⟨2, ![2, 500000]⟩
abbrev S160x128 : Shape := ⟨2, ![160, 128]⟩
abbrev S128 : Shape := ⟨1, ![128]⟩
abbrev S256x128 : Shape := ⟨2, ![256, 128]⟩
abbrev S_ : Shape := ⟨0, ![]⟩
abbrev S1x500000 : Shape := ⟨2, ![1, 500000]⟩
abbrev S500000 : Shape := ⟨1, ![500000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S500000x32 : S_.BroadcastsInDim S500000x32 (![] : Fin 0 → Fin S500000x32.rank)
  reducesTo_S500000x32_S_d0_1 : S500000x32.ReducesTo [0, 1] S_
  bcast_S_S160x128 : S_.BroadcastsInDim S160x128 (![] : Fin 0 → Fin S160x128.rank)
  reducesTo_S160x128_S_d0_1 : S160x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  reducesTo_S500000_S_d0 : S500000.ReducesTo [0] S_

variable [Facts]

def fn_part2 {F : FTy → Type} [FloatOps F] (main_v28 : IVec S_ 1) (main_v32 : IVec S500000 1) (main_v34 : IVec S500000 32) : IVec S_ 1 :=
  let main_c_11 : IVec S_ 32 := constantI S_ 32 50000#32
  let main_v35 : IVec S500000 32 := broadcastInDim S500000 ![] bcast_S_S500000 main_c_11
  let main_v36 : IVec S500000 1 := cmpi .slt main_v34 main_v35
  let main_v37 : IVec S500000 1 := andi main_v32 main_v36
  let main_c_12 : IVec S_ 1 := constantI S_ 1 1#1
  let main_v38 : IVec S_ 1 := (fun x v => Host.reduce IntOp.andi x v reducesTo_S500000_S_d0 h_S_) main_v37 main_c_12
  let main_v39 : IVec S_ 1 := andi main_v28 main_v38
  main_v39

def fn_part1 {F : FTy → Type} [FloatOps F] (main_arg2 : IVec S2x500000 32) (main_arg5 : FVec F S256x128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : IVec S1x500000 32 := (extractStridedSlice S1x500000 ![0, 0] · slices_S2x500000_S1x500000_0_0) main_arg2
  let main_v30 : IVec S500000 32 := shapeCast S500000 main_v29 shapeCasts_S1x500000_S500000
  let main_c_10 : IVec S_ 32 := constantI S_ 32 0#32
  let main_v31 : IVec S500000 32 := broadcastInDim S500000 ![] bcast_S_S500000 main_c_10
  let main_v32 : IVec S500000 1 := cmpi .sge main_v30 main_v31
  let main_v33 : IVec S1x500000 32 := (extractStridedSlice S1x500000 ![0, 0] · slices_S2x500000_S1x500000_0_0) main_arg2
  let main_v34 : IVec S500000 32 := shapeCast S500000 main_v33 shapeCasts_S1x500000_S500000
  fn_part2 (F := F) main_v28 main_v32 main_v34

def fn {F : FTy → Type} [FloatOps F] (main_arg0 : FVec F S50000x128 .f32) (main_arg1 : FVec F S500000x32 .f32) (main_arg2 : IVec S2x500000 32) (main_arg3 : FVec F S160x128 .f32) (main_arg4 : FVec F S128 .f32) (main_arg5 : FVec F S256x128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S500000x32 .f32 := Host.absf main_arg1
  let main_cst_0 : FVec F S_ .f32 := constant S_ .f32 0x7F800000#32
  let main_v5 : FVec F S500000x32 .f32 := broadcastInDim S500000x32 ![] bcast_S_S500000x32 main_cst_0
  let main_v6 : IVec S500000x32 1 := cmpf .olt main_v4 main_v5
  let main_c_1 : IVec S_ 1 := constantI S_ 1 1#1
  let main_v7 : IVec S_ 1 := (fun x v => Host.reduce IntOp.andi x v reducesTo_S500000x32_S_d0_1 h_S_) main_v6 main_c_1
  let main_v8 : IVec S_ 1 := andi main_v3 main_v7
  let main_v9 : FVec F S160x128 .f32 := Host.absf main_arg3
  let main_cst_2 : FVec F S_ .f32 := constant S_ .f32 0x7F800000#32
  let main_v10 : FVec F S160x128 .f32 := broadcastInDim S160x128 ![] bcast_S_S160x128 main_cst_2
  let main_v11 : IVec S160x128 1 := cmpf .olt main_v9 main_v10
  let main_c_3 : IVec S_ 1 := constantI S_ 1 1#1
  let main_v12 : IVec S_ 1 := (fun x v => Host.reduce IntOp.andi x v reducesTo_S160x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg5 main_arg6 main_v13 main_v16
-- ==== Kernel.lean ====
abbrev S50000x128 : Shape := ⟨2, ![50000, 128]⟩
abbrev S500000x32 : Shape := ⟨2, ![500000, 32]⟩
abbrev S2x500000 : Shape := ⟨2, ![2, 500000]⟩
abbrev S160x128 : Shape := ⟨2, ![160, 128]⟩
abbrev S128 : Shape := ⟨1, ![128]⟩
abbrev S256x128 : Shape := ⟨2, ![256, 128]⟩
abbrev S1x500000 : Shape := ⟨2, ![1, 500000]⟩
abbrev S500000 : Shape := ⟨1, ![500000]⟩
abbrev S_ : Shape := ⟨0, ![]⟩
abbrev S3808 : Shape := ⟨1, ![3808]⟩
abbrev S503808 : Shape := ⟨1, ![503808]⟩
abbrev S3808x32 : Shape := ⟨2, ![3808, 32]⟩
abbrev S503808x32 : Shape := ⟨2, ![503808, 32]⟩
abbrev S503808x1 : Shape := ⟨2, ![503808, 1]⟩
abbrev S1 : Shape := ⟨1, ![1]⟩
abbrev S1x1 : Shape := ⟨2, ![1, 1]⟩
abbrev S503808x128 : Shape := ⟨2, ![503808, 128]⟩
abbrev S128x128 : Shape := ⟨2, ![128, 128]⟩
abbrev S32x128 : Shape := ⟨2, ![32, 128]⟩
abbrev S1x128 : Shape := ⟨2, ![1, 128]⟩
abbrev S4096x128 : Shape := ⟨2, ![4096, 128]⟩
abbrev S4096x32 : Shape := ⟨2, ![4096, 32]⟩
abbrev S5000x128 : Shape := ⟨2, ![5000, 128]⟩

abbrev nBuf : Space → Nat
  | .hbm => 55
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S500000x32, .f32⟩
  | .hbm, ⟨2, _⟩ => ⟨S2x500000, .i32⟩
  | .hbm, ⟨3, _⟩ => ⟨S160x128, .f32⟩
  | .hbm, ⟨4, _⟩ => ⟨S128, .f32⟩
  | .hbm, ⟨5, _⟩ => ⟨S256x128, .f32⟩
  | .hbm, ⟨6, _⟩ => ⟨S128, .f32⟩
  | .hbm, ⟨7, _⟩ => ⟨S1x500000, .i32⟩
  | .hbm, ⟨8, _⟩ => ⟨S500000, .i32⟩
  | .hbm, ⟨9, _⟩ => ⟨S1x500000, .i32⟩
  | .hbm, ⟨10, _⟩ => ⟨S500000, .i32⟩
  | .hbm, ⟨11, _⟩ => ⟨S_, .i32⟩
  | .hbm, ⟨12, _⟩ => ⟨S3808, .i32⟩
  | .hbm, ⟨13, _⟩ => ⟨S503808, .i32⟩
  | .hbm, ⟨14, _⟩ => ⟨S_, .i32⟩
  | .hbm, ⟨15, _⟩ => ⟨S3808, .i32⟩
  | .hbm, ⟨16, _⟩ => ⟨S503808, .i32⟩
  | .hbm, ⟨17, _⟩ => ⟨S_, .f32⟩
  | .hbm, ⟨18, _⟩ => ⟨S3808x32, .f32⟩
  | .hbm, ⟨19, _⟩ => ⟨S503808x32, .f32⟩
  | .hbm, ⟨20, _⟩ => ⟨S_, .i32⟩
  | .hbm, ⟨21, _⟩ => ⟨S503808, .i32⟩
  | .hbm, ⟨22, _⟩ => ⟨S503808, .i1⟩
  | .hbm, ⟨23, _⟩ => ⟨S_, .i32⟩
  | .hbm, ⟨24, _⟩ => ⟨S503808, .i32⟩
  | .hbm, ⟨25, _⟩ => ⟨S503808, .i32⟩
  | .hbm, ⟨26, _⟩ => ⟨S503808, .i32⟩
  | .hbm, ⟨27, _⟩ => ⟨S503808x1, .i32⟩
  | .hbm, ⟨28, _⟩ => ⟨S1, .i32⟩
  | .hbm, ⟨29, _⟩ => ⟨S_, .i32⟩
  | .hbm, ⟨30, _⟩ => ⟨S503808x1, .i32⟩
  | .hbm, ⟨31, _⟩ => ⟨S503808x1, .i1⟩
  | .hbm, ⟨32, _⟩ => ⟨S1x1, .i32⟩
  | .hbm, ⟨33, _⟩ => ⟨S503808x1, .i32⟩
  | .hbm, ⟨34, _⟩ => ⟨S503808x1, .i1⟩
  | .hbm, ⟨35, _⟩ => ⟨S503808x1, .i1⟩
  | .hbm, ⟨36, _⟩ => ⟨S_, .i1⟩
  | .hbm, ⟨37, _⟩ => ⟨S503808, .i1⟩
  | .hbm, ⟨38, _⟩ => ⟨S503808x128, .f32⟩
  | .hbm, ⟨39, _⟩ => ⟨S503808x128, .i1⟩
  | .hbm, ⟨40, _⟩ => ⟨S_, .f32⟩
  | .hbm, ⟨41, _⟩ => ⟨S503808x128, .f32⟩
  | .hbm, ⟨42, _⟩ => ⟨S503808x128, .f32⟩
  | .hbm, ⟨43, _⟩ => ⟨S128x128, .f32⟩
  | .hbm, ⟨44, _⟩ => ⟨S32x128, .f32⟩
  | .hbm, ⟨45, _⟩ => ⟨S1x128, .f32⟩
  | .hbm, ⟨46, _⟩ => ⟨S503808x128, .f32⟩
  | .hbm, ⟨47, _⟩ => ⟨S_, .f32⟩
  | .hbm, ⟨48, _⟩ => ⟨S50000x128, .f32⟩
  | .hbm, ⟨49, _⟩ => ⟨S503808x1, .i32⟩
  | .hbm, ⟨50, _⟩ => ⟨S50000x128, .f32⟩
  | .hbm, ⟨51, _⟩ => ⟨S128x128, .f32⟩
  | .hbm, ⟨52, _⟩ => ⟨S128x128, .f32⟩
  | .hbm, ⟨53, _⟩ => ⟨S1x128, .f32⟩
  | .hbm, ⟨54, _⟩ => ⟨S50000x128, .f32⟩
  | .local _ .vmem, ⟨0, _⟩ => ⟨S4096x128, .f32⟩
  | .local _ .vmem, ⟨1, _⟩ => ⟨S4096x128, .f32⟩
  | .local _ .vmem, ⟨2, _⟩ => ⟨S4096x32, .f32⟩
  | .local _ .vmem, ⟨3, _⟩ => ⟨S4096x32, .f32⟩
  | .local _ .vmem, ⟨4, _⟩ => ⟨S128x128, .f32⟩
  | .local _ .vmem, ⟨5, _⟩ => ⟨S32x128, .f32⟩
  | .local _ .vmem, ⟨6, _⟩ => ⟨S1x128, .f32⟩
  | .local _ .vmem, ⟨7, _⟩ => ⟨S4096x128, .f32⟩
  | .local _ .vmem, ⟨8, _⟩ => ⟨S4096x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_cst : Ref sig .tc := ⟨.hbm, 40, rfl⟩
abbrev main_call0_v15 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_cst_1 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![123], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S3808 : S_.BroadcastsInDim S3808 (![] : Fin 0 → Fin S3808.rank)
  concatenates_S500000_S3808_S503808_d0 : Shape.Concatenates [S500000, S3808] S503808 0
  bcast_S_S3808x32 : S_.BroadcastsInDim S3808x32 (![] : Fin 0 → Fin S3808x32.rank)
  concatenates_S500000x32_S3808x32_S503808x32_d0 : Shape.Concatenates [S500000x32, S3808x32] S503808x32 0
  bcast_S_S503808 : S_.BroadcastsInDim S503808 (![] : Fin 0 → Fin S503808.rank)
  bcast_S503808_S503808x1_0 : S503808.BroadcastsInDim S503808x1 (![0] : Fin 1 → Fin S503808x1.rank)
  bcast_S_S503808x1 : S_.BroadcastsInDim S503808x1 (![] : Fin 0 → Fin S503808x1.rank)
  bcast_S1_S1x1_1 : S1.BroadcastsInDim S1x1 (![1] : Fin 1 → Fin S1x1.rank)
  bcast_S1x1_S503808x1_0_1 : S1x1.BroadcastsInDim S503808x1 (![0, 1] : Fin 2 → Fin S503808x1.rank)
  reducesTo_S503808x1_S503808_d1 : S503808x1.ReducesTo [1] S503808
  h_S_ : 0 < S_.numel
  bcast_S503808_S503808x128_0 : S503808.BroadcastsInDim S503808x128 (![0] : Fin 1 → Fin S503808x128.rank)
  bcast_S_S503808x128 : S_.BroadcastsInDim S503808x128 (![] : Fin 0 → Fin S503808x128.rank)
  slices_S160x128_S128x128_0_0 : S160x128.Slices ![0, 0] S128x128
  slices_S160x128_S32x128_128_0 : S160x128.Slices ![128, 0] S32x128
  shapeCasts_S128_S1x128 : S128.ShapeCasts S1x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  bitsLt_bf16_f32 : FTy.bits .bf16 < FTy.bits .f32
  inb_S4096x32_S4096x32_0_0 : ∀ a, (![0, 0] : Fin 2 → Nat) a + S4096x32.size a ≤ S4096x32.size a
  h_S4096x32 : 0 < S4096x32.numel
  shapeCasts_S4096x32_S4096x32 : S4096x32.ShapeCasts S4096x32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  bcast_S_S50000x128 : S_.BroadcastsInDim S50000x128 (![] : Fin 0 → Fin S50000x128.rank)
  slices_S256x128_S128x128_0_0 : S256x128.Slices ![0, 0] S128x128
  slices_S256x128_S128x128_128_0 : S256x128.Slices ![128, 0] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  gather_S50000x128_S503808x1_S503808x128_1_0_n_n_0_1_1128_wf : GatherDims.WF S50000x128 S503808x1 S503808x128 [1] [0] [] [0] [] 1 ![1, 128]
  dot_S4096x128_S128x128_S4096x128_1_0_0_1_n_n_wf : DotDims.WF S4096x128 S128x128 S4096x128 [1] [0] [0] [1] [] []
  dot_S4096x32_S32x128_S4096x128_1_0_0_1_n_n_wf : DotDims.WF S4096x32 S32x128 S4096x128 [1] [0] [0] [1] [] []
  scatter_S50000x128_S503808x1_S503808x128_1_0_0_1_wf : ScatterDims.WF S50000x128 S503808x1 S503808x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S503808x128.size a
  hwx0_0 : ∀ i : grid0.Coords, EltTy.bits .f32 = 32 ∨ (Rect.block (s := S503808x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x32.size a ≤ S503808x32.size a
  hwx0_1 : ∀ i : grid0.Coords, EltTy.bits .f32 = 32 ∨ (Rect.block (s := S503808x32) S4096x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x128.size a ≤ S32x128.size a
  hwx0_3 : ∀ i : grid0.Coords, EltTy.bits .f32 = 32 ∨ (Rect.block (s := S32x128) S32x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x128.size a ≤ S503808x128.size a
  hwx0_5 : ∀ i : grid0.Coords, EltTy.bits .f32 = 32 ∨ (Rect.block (s := S503808x128) S4096x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)

variable [Facts₀]

def gather_S50000x128_S503808x1_S503808x128_1_0_n_n_0_1_1128 : GatherDims S50000x128 S503808x1 S503808x128 where
  offsetDims := [1]
  collapsedSliceDims := [0]
  operandBatchingDims := []
  startIndicesBatchingDims := []
  startIndexMap := [0]
  indexVectorDim := 1
  sliceSizes := ![1, 128]
  wf := gather_S50000x128_S503808x1_S503808x128_1_0_n_n_0_1_1128_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x32_S32x128_S4096x128_1_0_0_1_n_n : DotDims S4096x32 S32x128 S4096x128 where
  lhsContracting := [1]
  rhsContracting := [0]
  lhsNonContracting := [0]
  rhsNonContracting := [1]
  lhsBatch := []
  rhsBatch := []
  wf := dot_S4096x32_S32x128_S4096x128_1_0_0_1_n_n_wf
def scatter_S50000x128_S503808x1_S503808x128_1_0_0_1 : ScatterDims S50000x128 S503808x1 S503808x128 where
  updateWindowDims := [1]
  insertedWindowDims := [0]
  scatterDimsToOperandDims := [0]
  indexVectorDim := 1
  wf := scatter_S50000x128_S503808x1_S503808x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v10) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S4096x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S32x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S4096x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v20) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v21) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S500000x32 : Shape := ⟨2, ![500000, 32]⟩
abbrev S2x500000 : Shape := ⟨2, ![2, 500000]⟩
abbrev S160x128 : Shape := ⟨2, ![160, 128]⟩
abbrev S128 : Shape := ⟨1, ![128]⟩
abbrev S256x128 : Shape := ⟨2, ![256, 128]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S500000x160 : Shape := ⟨2, ![500000, 160]⟩
abbrev S1x128 : Shape := ⟨2, ![1, 128]⟩
abbrev S50000x256 : Shape := ⟨2, ![50000, 256]⟩

abbrev nBuf : Space → Nat
  | .hbm => 40
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S500000x32, .f32⟩
  | .hbm, ⟨2, _⟩ => ⟨S2x500000, .i32⟩
  | .hbm, ⟨3, _⟩ => ⟨S160x128, .f32⟩
  | .hbm, ⟨4, _⟩ => ⟨S128, .f32⟩
  | .hbm, ⟨5, _⟩ => ⟨S256x128, .f32⟩
  | .hbm, ⟨6, _⟩ => ⟨S128, .f32⟩
  | .hbm, ⟨7, _⟩ => ⟨S1x500000, .i32⟩
  | .hbm, ⟨8, _⟩ => ⟨S500000, .i32⟩
  | .hbm, ⟨9, _⟩ => ⟨S1x500000, .i32⟩
  | .hbm, ⟨10, _⟩ => ⟨S500000, .i32⟩
  | .hbm, ⟨11, _⟩ => ⟨S_, .i32⟩
  | .hbm, ⟨12, _⟩ => ⟨S500000, .i32⟩
  | .hbm, ⟨13, _⟩ => ⟨S500000, .i1⟩
  | .hbm, ⟨14, _⟩ => ⟨S_, .i32⟩
  | .hbm, ⟨15, _⟩ => ⟨S500000, .i32⟩
  | .hbm, ⟨16, _⟩ => ⟨S500000, .i32⟩
  | .hbm, ⟨17, _⟩ => ⟨S500000, .i32⟩
  | .hbm, ⟨18, _⟩ => ⟨S500000x1, .i32⟩
  | .hbm, ⟨19, _⟩ => ⟨S500000x128, .f32⟩
  | .hbm, ⟨20, _⟩ => ⟨S500000x160, .f32⟩
  | .hbm, ⟨21, _⟩ => ⟨S500000x128, .f32⟩
  | .hbm, ⟨22, _⟩ => ⟨S1x128, .f32⟩
  | .hbm, ⟨23, _⟩ => ⟨S500000x128, .f32⟩
  | .hbm, ⟨24, _⟩ => ⟨S500000x128, .f32⟩
  | .hbm, ⟨25, _⟩ => ⟨S_, .f32⟩
  | .hbm, ⟨26, _⟩ => ⟨S500000x128, .f32⟩
  | .hbm, ⟨27, _⟩ => ⟨S500000x128, .f32⟩
  | .hbm, ⟨28, _⟩ => ⟨S_, .f32⟩
  | .hbm, ⟨29, _⟩ => ⟨S50000x128, .f32⟩
  | .hbm, ⟨30, _⟩ => ⟨S500000x1, .i32⟩
  | .hbm, ⟨31, _⟩ => ⟨S50000x128, .f32⟩
  | .hbm, ⟨32, _⟩ => ⟨S50000x256, .f32⟩
  | .hbm, ⟨33, _⟩ => ⟨S50000x128, .f32⟩
  | .hbm, ⟨34, _⟩ => ⟨S1x128, .f32⟩
  | .hbm, ⟨35, _⟩ => ⟨S50000x128, .f32⟩
  | .hbm, ⟨36, _⟩ => ⟨S50000x128, .f32⟩
  | .hbm, ⟨37, _⟩ => ⟨S_, .f32⟩
  | .hbm, ⟨38, _⟩ => ⟨S50000x128, .f32⟩
  | .hbm, ⟨39, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_cst : Ref sig .tc := ⟨.hbm, 25, rfl⟩
abbrev main_call0_v0 : Ref sig .tc := ⟨.hbm, 26, rfl⟩
abbrev main_v16 : Ref sig .tc := ⟨.hbm, 27, rfl⟩
abbrev main_cst : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_call1_cst : Ref sig .tc := ⟨.hbm, 37, rfl⟩
abbrev main_call1_v0 : Ref sig .tc := ⟨.hbm, 38, rfl⟩
abbrev main_v25 : Ref sig .tc := ⟨.hbm, 39, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  concatenates_S500000x128_S500000x32_S500000x160_d1 : Shape.Concatenates [S500000x128, S500000x32] S500000x160 1
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  gather_S50000x128_S500000x1_S500000x128_1_0_n_n_0_1_1128_wf : GatherDims.WF S50000x128 S500000x1 S500000x128 [1] [0] [] [0] [] 1 ![1, 128]
  dot_S500000x160_S160x128_S500000x128_1_0_0_1_n_n_wf : DotDims.WF S500000x160 S160x128 S500000x128 [1] [0] [0] [1] [] []
  scatter_S50000x128_S500000x1_S500000x128_1_0_0_1_wf : ScatterDims.WF S50000x128 S500000x1 S500000x128 [1] [0] [0] 1
  dot_S50000x256_S256x128_S50000x128_1_0_0_1_n_n_wf : DotDims.WF S50000x256 S256x128 S50000x128 [1] [0] [0] [1] [] []

variable [Facts₀]

def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def dot_S500000x160_S160x128_S500000x128_1_0_0_1_n_n : DotDims S500000x160 S160x128 S500000x128 where
  lhsContracting := [1]
  rhsContracting := [0]
  lhsNonContracting := [0]
  rhsNonContracting := [1]
  lhsBatch := []
  rhsBatch := []
  wf := dot_S500000x160_S160x128_S500000x128_1_0_0_1_n_n_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.HostTerms.lean ====
/-
  The host-side arrays of the tiled program, as terms of its input arrays.

  Before its first tiled map the program pads the edge list from 500000 to 503808 = 123 * 4096 edges: the source words
  with 0, the destination words with 50000 (one past the last node), the edge rows with zeros.  It takes the node rows of
  the padded source words with a filling take, cuts the first weight matrix into its upper 128 and lower 32 rows and
  turns the bias into a 1 x 128 row.  Between the two tiled maps it adds the 503808 message rows into an array of zeros
  at the padded destination words, cuts the second weight matrix into its upper and lower 128 rows and turns the second
  bias into a row.
-/
import proofs.«427579_j16630113370839_2_alg».proof.Proof.Gen.KernelIdeal.Frame

noncomputable section

namespace Cert.KernelIdeal.Host

open Cert.KernelIdeal Idealize.ShloMosaic
open Facts₀ Facts

variable {F : FTy → Type} [FloatOps F]

/-- Row 0 of the edge ends: the source words. -/
def srcVec (idX : IVec S2x500000 32) : IVec S500000 32 :=
  shapeCast S500000 (extractStridedSlice S1x500000 ![0, 0] idX slices_S2x500000_S1x500000_0_0) shapeCasts_S1x500000_S500000
/-- Row 1 of the edge ends: the destination words. -/
def dstVec (idX : IVec S2x500000 32) : IVec S500000 32 :=
  shapeCast S500000 (extractStridedSlice S1x500000 ![1, 0] idX slices_S2x500000_S1x500000_1_0) shapeCasts_S1x500000_S500000
/-- The source words padded with 3808 zeros. -/
def srcPad (idX : IVec S2x500000 32) : IVec S503808 32 :=
  concatenate S503808 0 [⟨S500000, srcVec idX⟩, ⟨S3808, broadcastInDim S3808 ![] bcast_S_S3808 (constantI S_ 32 0#32)⟩]
    concatenates_S500000_S3808_S503808_d0
/-- The destination words padded with 3808 copies of 50000. -/
def dstPad (idX : IVec S2x500000 32) : IVec S503808 32 :=
  concatenate S503808 0 [⟨S500000, dstVec idX⟩, ⟨S3808, broadcastInDim S3808 ![] bcast_S_S3808 (constantI S_ 32 50000#32)⟩]
    concatenates_S500000_S3808_S503808_d0
/-- The edge rows padded with 3808 rows of zeros. -/
def xePad (Xe : FVec F S500000x32 .f32) : FVec F S503808x32 .f32 :=
  concatenate S503808x32 0 [⟨S500000x32, Xe⟩, ⟨S3808x32, broadcastInDim S3808x32 ![] bcast_S_S3808x32 (constant S_ .f32 0x00000000#32)⟩]
    concatenates_S500000x32_S3808x32_S503808x32_d0
/-- The column of row numbers a take reads: a negative word moved up by 50000, one word per row. -/
def takeIdx (J : IVec S503808 32) : IVec S503808x1 32 :=
  broadcastInDim S503808x1 ![0] bcast_S503808_S503808x1_0
    (select (cmpi .slt J (broadcastInDim S503808 ![] bcast_S_S503808 (constantI S_ 32 0#32)))
      (addi J (broadcastInDim S503808 ![] bcast_S_S503808 (constantI S_ 32 50000#32))) J)
/-- The filling take of the node rows at the words J: the gathered rows where the row number is in [0, 49999], the fill
    pattern elsewhere. -/
def feats (H : FVec F S50000x128 .f32) (J : IVec S503808 32) : FVec F S503808x128 .f32 :=
  select
    (broadcastInDim S503808x128 ![0] bcast_S503808_S503808x128_0
      (Host.reduce IntOp.andi
        (andi (cmpi .sge (takeIdx J) (broadcastInDim S503808x1 ![] bcast_S_S503808x1 (constantI S_ 32 0#32)))
          (cmpi .sle (takeIdx J)
            (broadcastInDim S503808x1 ![0, 1] bcast_S1x1_S503808x1_0_1 (broadcastInDim S1x1 ![1] bcast_S1_S1x1_1 (constantI S1 32 49999#32)))))
        (constantI S_ 1 1#1) reducesTo_S503808x1_S503808_d1 h_S_))
    (Host.gather gather_S50000x128_S503808x1_S503808x128_1_0_n_n_0_1_1128 H (takeIdx J))
    (broadcastInDim S503808x128 ![] bcast_S_S503808x128 (constant S_ .f32 0x7FC00000#32))
/-- The upper 128 rows of the first weight matrix. -/
def wm1 (WM : FVec F S160x128 .f32) : FVec F S128x128 .f32 := extractStridedSlice S128x128 ![0, 0] WM slices_S160x128_S128x128_0_0
/-- The lower 32 rows of the first weight matrix. -/
def wm2 (WM : FVec F S160x128 .f32) : FVec F S32x128 .f32 := extractStridedSlice S32x128 ![128, 0] WM slices_S160x128_S32x128_128_0
/-- A bias vector as a 1 x 128 row. -/
def bias2 (b : FVec F S128 .f32) : FVec F S1x128 .f32 := shapeCast S1x128 b shapeCasts_S128_S1x128
/-- The upper 128 rows of the second weight matrix. -/
def wu1 (WU : FVec F S256x128 .f32) : FVec F S128x128 .f32 := extractStridedSlice S128x128 ![0, 0] WU slices_S256x128_S128x128_0_0
/-- The lower 128 rows of the second weight matrix. -/
def wu2 (WU : FVec F S256x128 .f32) : FVec F S128x128 .f32 := extractStridedSlice S128x128 ![128, 0] WU slices_S256x128_S128x128_128_0
/-- The message rows Y added, row by row, into an array of zeros at the padded destination words. -/
def scat (Y : FVec F S503808x128 .f32) (idX : IVec S2x500000 32) : FVec F S50000x128 .f32 :=
  Host.scatterAdd scatter_S50000x128_S503808x1_S503808x128_1_0_0_1
    (broadcastInDim S50000x128 ![] bcast_S_S50000x128 (constant S_ .f32 0x00000000#32))
    (broadcastInDim S503808x1 ![0] bcast_S503808_S503808x1_0 (dstPad idX)) Y

end Cert.KernelIdeal.Host

end
-- ==== Proof.HostValues.lean ====
/-
  What the tiled program's arrays hold when each of its two tiled maps is entered, as terms of the input arrays.
-/
import proofs.«427579_j16630113370839_2_alg».proof.Proof.HostTerms
import Idealize.ShloMosaic.Lib.StableHlo.Run

noncomputable section

open scoped BigOperators

namespace Cert.KernelIdeal.HostValues

open Cert.KernelIdeal Cert.KernelIdeal.Gen Cert.KernelIdeal.Host Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## One stretch of host operations, from any contents

The program's host operations come in four stretches: thirteen that pad the edge list, the twenty-three of the filling
take, three that cut the first weight matrix and turn the first bias into a row, and, between the two tiled maps, seven
that add the messages up and cut the second weight matrix.  Each fact below is about ONE stretch run from arbitrary
contents `V`: either the stretch writes the array, and the array then holds the stretch's term of what `V` held at the
operands, or it does not, and the array holds what it held. -/

/-- A reference that no operation of a stretch writes holds after the stretch what it held before: the written
    reference of each operation differs from it. -/
local macro "unwritten" ops:ident : tactic =>
  `(tactic| (refine StableHlo.after_of_forall_not_mem (b := Proc.devRef .tc _) _ _ (List.forall_iff_forall_mem.mp ?_)
             simp only [$ops:ident, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

section Stretch

variable (V : Valuation τ sig (Elt F))

/-! ### The padding stretch -/

/-- It leaves the padded source words. -/
theorem pad_v5 : StableHlo.after hostOps0 V (Proc.devRef .tc main_v5) = srcPad (V (Proc.devRef .tc main_arg2)) := by
  simp only [hostOps0]
  after_results
  rfl
/-- It leaves the padded destination words. -/
theorem pad_v7 : StableHlo.after hostOps0 V (Proc.devRef .tc main_v7) = dstPad (V (Proc.devRef .tc main_arg2)) := by
  simp only [hostOps0]
  after_results
  rfl
/-- It leaves the padded edge rows. -/
theorem pad_v9 : StableHlo.after hostOps0 V (Proc.devRef .tc main_v9) = xePad (V (Proc.devRef .tc main_arg1)) := by
  simp only [hostOps0]
  after_results
  rfl
/-- It writes none of the node rows, the weights and the biases. -/
theorem keep0_arg0 : StableHlo.after hostOps0 V (Proc.devRef .tc main_arg0) = V (Proc.devRef .tc main_arg0) := by unwritten hostOps0
theorem keep0_arg3 : StableHlo.after hostOps0 V (Proc.devRef .tc main_arg3) = V (Proc.devRef .tc main_arg3) := by unwritten hostOps0
theorem keep0_arg4 : StableHlo.after hostOps0 V (Proc.devRef .tc main_arg4) = V (Proc.devRef .tc main_arg4) := by unwritten hostOps0
theorem keep0_arg5 : StableHlo.after hostOps0 V (Proc.devRef .tc main_arg5) = V (Proc.devRef .tc main_arg5) := by unwritten hostOps0
theorem keep0_arg6 : StableHlo.after hostOps0 V (Proc.devRef .tc main_arg6) = V (Proc.devRef .tc main_arg6) := by unwritten hostOps0

/-! ### The filling take -/

/-- It leaves the take of the node rows at the words it is given.  Its operations are printed over references that
    carry their array's type; at these literal references the transport along that type is the identity, and it is
    removed operation by operation before the stretch is run. -/
theorem take_v10 : StableHlo.after hostOps0_1 V (Proc.devRef .tc main_v10)
    = feats (V (Proc.devRef .tc main_arg0)) (V (Proc.devRef .tc main_v5)) := by
  simp only [hostOps0_1, StableHlo.TRef.nullary, StableHlo.TRef.unary, StableHlo.TRef.binary, StableHlo.TRef.ternary,
    StableHlo.TRef.ofBuf, StableHlo.TRef.toBuf, cast_eq]
  after_results_simp
  rfl
/-- It writes none of the node rows, the weights, the biases, the padded destination words and the padded edge rows. -/
theorem keep01_arg0 : StableHlo.after hostOps0_1 V (Proc.devRef .tc main_arg0) = V (Proc.devRef .tc main_arg0) := by unwritten hostOps0_1
theorem keep01_arg3 : StableHlo.after hostOps0_1 V (Proc.devRef .tc main_arg3) = V (Proc.devRef .tc main_arg3) := by unwritten hostOps0_1
theorem keep01_arg4 : StableHlo.after hostOps0_1 V (Proc.devRef .tc main_arg4) = V (Proc.devRef .tc main_arg4) := by unwritten hostOps0_1
theorem keep01_arg5 : StableHlo.after hostOps0_1 V (Proc.devRef .tc main_arg5) = V (Proc.devRef .tc main_arg5) := by unwritten hostOps0_1
theorem keep01_arg6 : StableHlo.after hostOps0_1 V (Proc.devRef .tc main_arg6) = V (Proc.devRef .tc main_arg6) := by unwritten hostOps0_1
theorem keep01_v7 : StableHlo.after hostOps0_1 V (Proc.devRef .tc main_v7) = V (Proc.devRef .tc main_v7) := by unwritten hostOps0_1
theorem keep01_v9 : StableHlo.after hostOps0_1 V (Proc.devRef .tc main_v9) = V (Proc.devRef .tc main_v9) := by unwritten hostOps0_1

/-! ### The first cuts -/

/-- The upper rows of the first weight matrix. -/
theorem cut_v11 : StableHlo.after hostOps0_2 V (Proc.devRef .tc main_v11) = wm1 (V (Proc.devRef .tc main_arg3)) := by
  simp only [hostOps0_2]
  after_results
  rfl
/-- The lower rows of the first weight matrix. -/
theorem cut_v12 : StableHlo.after hostOps0_2 V (Proc.devRef .tc main_v12) = wm2 (V (Proc.devRef .tc main_arg3)) := by
  simp only [hostOps0_2]
  after_results
  rfl
/-- The first bias as a row. -/
theorem cut_v13 : StableHlo.after hostOps0_2 V (Proc.devRef .tc main_v13) = bias2 (V (Proc.devRef .tc main_arg4)) := by
  simp only [hostOps0_2]
  after_results
  rfl
/-- They write none of the node rows, the second weights and bias, the padded destination words, the padded edge rows
    and the taken rows. -/
theorem keep02_arg0 : StableHlo.after hostOps0_2 V (Proc.devRef .tc main_arg0) = V (Proc.devRef .tc main_arg0) := by unwritten hostOps0_2
theorem keep02_arg5 : StableHlo.after hostOps0_2 V (Proc.devRef .tc main_arg5) = V (Proc.devRef .tc main_arg5) := by unwritten hostOps0_2
theorem keep02_arg6 : StableHlo.after hostOps0_2 V (Proc.devRef .tc main_arg6) = V (Proc.devRef .tc main_arg6) := by unwritten hostOps0_2
theorem keep02_v7 : StableHlo.after hostOps0_2 V (Proc.devRef .tc main_v7) = V (Proc.devRef .tc main_v7) := by unwritten hostOps0_2
theorem keep02_v9 : StableHlo.after hostOps0_2 V (Proc.devRef .tc main_v9) = V (Proc.devRef .tc main_v9) := by unwritten hostOps0_2
theorem keep02_v10 : StableHlo.after hostOps0_2 V (Proc.devRef .tc main_v10) = V (Proc.devRef .tc main_v10) := by unwritten hostOps0_2

/-! ### Between the two tiled maps -/

/-- The rows of `main_v14` added into zeros at the destination words of `main_v7`. -/
theorem mid_v17 : StableHlo.after hostOps1 V (Proc.devRef .tc main_v17)
    = Host.scatterAdd scatter_S50000x128_S503808x1_S503808x128_1_0_0_1
        (broadcastInDim S50000x128 ![] bcast_S_S50000x128 (constant S_ .f32 0x00000000#32))
        (broadcastInDim S503808x1 ![0] bcast_S503808_S503808x1_0 (V (Proc.devRef .tc main_v7)))
        (V (Proc.devRef .tc main_v14)) := by
  simp only [hostOps1]
  after_results
/-- The upper rows of the second weight matrix. -/
theorem mid_v18 : StableHlo.after hostOps1 V (Proc.devRef .tc main_v18) = wu1 (V (Proc.devRef .tc main_arg5)) := by
  simp only [hostOps1]
  after_results
  rfl
/-- The lower rows of the second weight matrix. -/
theorem mid_v19 : StableHlo.after hostOps1 V (Proc.devRef .tc main_v19) = wu2 (V (Proc.devRef .tc main_arg5)) := by
  simp only [hostOps1]
  after_results
  rfl
/-- The second bias as a row. -/
theorem mid_v20 : StableHlo.after hostOps1 V (Proc.devRef .tc main_v20) = bias2 (V (Proc.devRef .tc main_arg6)) := by
  simp only [hostOps1]
  after_results
  rfl
/-- They do not write the node rows. -/
theorem keep1_arg0 : StableHlo.after hostOps1 V (Proc.devRef .tc main_arg0) = V (Proc.devRef .tc main_arg0) := by unwritten hostOps1

end Stretch

/-! ## The stretches in order

An input array is written by no stretch and by no tiled map, so it holds what the launch memory holds; the padded
arrays are written once, by the padding stretch. -/

/-- The node rows after the padding stretch. -/
theorem W1_arg0 (c : Dev nD) : W1 m ρ c (Proc.devRef .tc main_arg0) = m ((c : Thread nD τ).loc main_arg0) :=
  keep0_arg0 (W0 m ρ c)
/-- The padded source words after the padding stretch. -/
theorem W1_v5 (c : Dev nD) : W1 m ρ c (Proc.devRef .tc main_v5) = srcPad (m ((c : Thread nD τ).loc main_arg2)) :=
  pad_v5 (W0 m ρ c)
/-- The first weight matrix after the filling take. -/
theorem W2_arg3 (c : Dev nD) : W2 m ρ c (Proc.devRef .tc main_arg3) = m ((c : Thread nD τ).loc main_arg3) :=
  (keep01_arg3 (W1 m ρ c)).trans (keep0_arg3 (W0 m ρ c))
/-- The first bias after the filling take. -/
theorem W2_arg4 (c : Dev nD) : W2 m ρ c (Proc.devRef .tc main_arg4) = m ((c : Thread nD τ).loc main_arg4) :=
  (keep01_arg4 (W1 m ρ c)).trans (keep0_arg4 (W0 m ρ c))
/-- The node rows when the first tiled map is entered. -/
theorem W3_arg0 (c : Dev nD) : W3 m ρ c (Proc.devRef .tc main_arg0) = m ((c : Thread nD τ).loc main_arg0) :=
  (keep02_arg0 (W2 m ρ c)).trans ((keep01_arg0 (W1 m ρ c)).trans (W1_arg0 m ρ c))
/-- The second weight matrix when the first tiled map is entered. -/
theorem W3_arg5 (c : Dev nD) : W3 m ρ c (Proc.devRef .tc main_arg5) = m ((c : Thread nD τ).loc main_arg5) :=
  (keep02_arg5 (W2 m ρ c)).trans ((keep01_arg5 (W1 m ρ c)).trans (keep0_arg5 (W0 m ρ c)))
/-- The second bias when the first tiled map is entered. -/
theorem W3_arg6 (c : Dev nD) : W3 m ρ c (Proc.devRef .tc main_arg6) = m ((c : Thread nD τ).loc main_arg6) :=
  (keep02_arg6 (W2 m ρ c)).trans ((keep01_arg6 (W1 m ρ c)).trans (keep0_arg6 (W0 m ρ c)))
/-- The padded destination words when the first tiled map is entered. -/
theorem W3_v7 (c : Dev nD) : W3 m ρ c (Proc.devRef .tc main_v7) = dstPad (m ((c : Thread nD τ).loc main_arg2)) :=
  (keep02_v7 (W2 m ρ c)).trans ((keep01_v7 (W1 m ρ c)).trans (pad_v7 (W0 m ρ c)))

/-! ## At the entry of the first tiled map -/

/-- The node rows of the padded source words. -/
theorem V3_feats (c : Dev nD) :
    V3 m ρ c main_v10 = feats (m ((c : Thread nD τ).loc main_arg0)) (srcPad (m ((c : Thread nD τ).loc main_arg2))) :=
  (keep02_v10 (W2 m ρ c)).trans ((take_v10 (W1 m ρ c)).trans
    ((congrArg (fun H => feats H (W1 m ρ c (Proc.devRef .tc main_v5))) (W1_arg0 m ρ c)).trans
      (congrArg (feats (m ((c : Thread nD τ).loc main_arg0))) (W1_v5 m ρ c))))
/-- The padded edge rows. -/
theorem V3_xe (c : Dev nD) : V3 m ρ c main_v9 = xePad (m ((c : Thread nD τ).loc main_arg1)) :=
  (keep02_v9 (W2 m ρ c)).trans ((keep01_v9 (W1 m ρ c)).trans (pad_v9 (W0 m ρ c)))
/-- The upper rows of the first weight matrix. -/
theorem V3_wm1 (c : Dev nD) : V3 m ρ c main_v11 = wm1 (m ((c : Thread nD τ).loc main_arg3)) :=
  (cut_v11 (W2 m ρ c)).trans (congrArg wm1 (W2_arg3 m ρ c))
/-- The lower rows of the first weight matrix. -/
theorem V3_wm2 (c : Dev nD) : V3 m ρ c main_v12 = wm2 (m ((c : Thread nD τ).loc main_arg3)) :=
  (cut_v12 (W2 m ρ c)).trans (congrArg wm2 (W2_arg3 m ρ c))
/-- The first bias as a row. -/
theorem V3_bm (c : Dev nD) : V3 m ρ c main_v13 = bias2 (m ((c : Thread nD τ).loc main_arg4)) :=
  (cut_v13 (W2 m ρ c)).trans (congrArg bias2 (W2_arg4 m ρ c))

/-! ## At the entry of the second tiled map

The first tiled map changes its own arrays only: the node rows, the second weights and bias and the padded destination
words are none of them, and the message rows are its sixth array. -/

/-- The node rows, untouched. -/
theorem V5_h (c : Dev nD) : V5 m ρ c main_arg0 = m ((c : Thread nD τ).loc main_arg0) :=
  (keep1_arg0 (W4 m ρ c)).trans ((W4_of_ne m ρ c main_arg0 (by decide)).trans (W3_arg0 m ρ c))
/-- The gathered messages: what the first tiled map left, added at the padded destination words. -/
theorem V5_z (c : Dev nD) :
    V5 m ρ c main_v17 = scat ((dat0 (V3 m ρ) c).arrAt 5 cfg0.N) (m ((c : Thread nD τ).loc main_arg2)) := by
  have h7 : W4 m ρ c (Proc.devRef .tc main_v7) = dstPad (m ((c : Thread nD τ).loc main_arg2)) :=
    (W4_of_ne m ρ c main_v7 (by decide)).trans (W3_v7 m ρ c)
  have h14 : W4 m ρ c (Proc.devRef .tc main_v14) = (dat0 (V3 m ρ) c).arrAt 5 cfg0.N := W4_arr m ρ c 5
  refine (mid_v17 (W4 m ρ c)).trans ?_
  rw [h7, h14]
  rfl
/-- The upper rows of the second weight matrix. -/
theorem V5_wu1 (c : Dev nD) : V5 m ρ c main_v18 = wu1 (m ((c : Thread nD τ).loc main_arg5)) :=
  (mid_v18 (W4 m ρ c)).trans (congrArg wu1 ((W4_of_ne m ρ c main_arg5 (by decide)).trans (W3_arg5 m ρ c)))
/-- The lower rows of the second weight matrix. -/
theorem V5_wu2 (c : Dev nD) : V5 m ρ c main_v19 = wu2 (m ((c : Thread nD τ).loc main_arg5)) :=
  (mid_v19 (W4 m ρ c)).trans (congrArg wu2 ((W4_of_ne m ρ c main_arg5 (by decide)).trans (W3_arg5 m ρ c)))
/-- The second bias as a row. -/
theorem V5_bu (c : Dev nD) : V5 m ρ c main_v20 = bias2 (m ((c : Thread nD τ).loc main_arg6)) :=
  (mid_v20 (W4 m ρ c)).trans (congrArg bias2 ((W4_of_ne m ρ c main_arg6 (by decide)).trans (W3_arg6 m ρ c)))

end Cert.KernelIdeal.HostValues

end
-- ==== Proof.Layer.lean ====
/-
  One layer of message passing over a graph, as one function of its inputs, on the extended reals.

  A graph of 50000 nodes and 500000 edges.  Node n carries a row H n of 128 numbers, edge e a row Xe e of 32 numbers, a
  source word I e and a destination word D e.  With weights WM (160 x 128), WU (256 x 128) and biases bM, bU:

    message  e j = max (sum_k H (row e) k * WM k j + sum_k Xe e k * WM (128 + k) j + bM j) 0
    gathered n j = 0 + sum over the edges e whose destination word, read signed, is n, of message e j
    result   n j = max (sum_k H n k * WU k j + sum_k gathered n k * WU (128 + k) j + bU j) 0

  where row e is the source word of e read signed and kept inside the table.  Each of the two maps is an affine map of a
  row that comes in two parts, followed by a clamp at zero (`dense2`): the weight matrix applied to the concatenation of
  the two parts is the sum of its upper rows applied to the first part and its lower rows applied to the second.
-/
import Idealize.ShloMosaic.PureOps.Ideal
import Idealize.ShloMosaic.Lib.ValueIdx

noncomputable section

open scoped BigOperators

namespace Cert.Layer

open Idealize.ShloMosaic Idealize.ShloMosaic.ValueIdx

/-- The float zero, as both programs write it. -/
abbrev zero : EReal := Ideal.ofBits .f32 0x00000000#32

/-- An affine map of a row given in two parts, then a clamp at zero:
    `max ((sum_k a k * w1 k + sum_k b k * w2 k) + bias) 0`. -/
def dense2 {K1 K2 : Nat} (a w1 : Fin K1 → EReal) (b w2 : Fin K2 → EReal) (bias : EReal) : EReal :=
  max (((∑ k, a k * w1 k) + ∑ k, b k * w2 k) + bias) zero

/-- Row k of the upper 128 rows of a 160-row matrix. -/
def loM (k : Fin 128) : Fin 160 := ⟨k.val, by omega⟩
/-- Row k of the lower 32 rows of a 160-row matrix. -/
def hiM (k : Fin 32) : Fin 160 := ⟨128 + k.val, by omega⟩
/-- Row k of the upper 128 rows of a 256-row matrix. -/
def loU (k : Fin 128) : Fin 256 := ⟨k.val, by omega⟩
/-- Row k of the lower 128 rows of a 256-row matrix. -/
def hiU (k : Fin 128) : Fin 256 := ⟨128 + k.val, by omega⟩

/-- The row of the node table an edge reads: its source word read signed, kept inside the table. -/
def srcRow (I : IVec ⟨1, ![500000]⟩ 32) (e : Fin 500000) : Fin 50000 :=
  ⟨min (I (ix1 e)).toInt.toNat (50000 - 1), by omega⟩

/-- The source words of the edges: row 0 of the 2 x 500000 array of edge ends. -/
def srcVec (idX : IVec ⟨2, ![2, 500000]⟩ 32) : IVec ⟨1, ![500000]⟩ 32 :=
  shapeCast ⟨1, ![500000]⟩ (extractStridedSlice ⟨2, ![1, 500000]⟩ ![0, 0] idX (by decide)) (by decide)
/-- The destination words of the edges: row 1 of the 2 x 500000 array of edge ends. -/
def dstVec (idX : IVec ⟨2, ![2, 500000]⟩ 32) : IVec ⟨1, ![500000]⟩ 32 :=
  shapeCast ⟨1, ![500000]⟩ (extractStridedSlice ⟨2, ![1, 500000]⟩ ![1, 0] idX (by decide)) (by decide)

/-- Every source word names a node: read signed it lies in [0, 50000). -/
def SrcInRange (idX : IVec ⟨2, ![2, 500000]⟩ 32) : Prop :=
  ∀ e : Fin 500000, 0 ≤ (srcVec idX (ix1 e)).toInt ∧ (srcVec idX (ix1 e)).toInt < 50000

section
variable (H : (⟨2, ![50000, 128]⟩ : Shape).Idx → EReal) (Xe : (⟨2, ![500000, 32]⟩ : Shape).Idx → EReal)
  (I D : IVec ⟨1, ![500000]⟩ 32)
  (WM : (⟨2, ![160, 128]⟩ : Shape).Idx → EReal) (bM : (⟨1, ![128]⟩ : Shape).Idx → EReal)
  (WU : (⟨2, ![256, 128]⟩ : Shape).Idx → EReal) (bU : (⟨1, ![128]⟩ : Shape).Idx → EReal)

/-- The message of edge e, channel j. -/
def message (e : Fin 500000) (j : Fin 128) : EReal :=
  dense2 (fun k => H (ix2 (srcRow I e) k)) (fun k => WM (ix2 (loM k) j))
    (fun k => Xe (ix2 e k)) (fun k => WM (ix2 (hiM k) j)) (bM (ix1 j))

/-- What node n gathers on channel j: the messages of the edges whose destination word, read signed, is n. -/
def gathered (n : Fin 50000) (j : Fin 128) : EReal :=
  zero + ∑ e : Fin 500000, if (D (ix1 e)).toInt = (n.val : ℤ) then message H Xe I WM bM e j else 0

/-- The layer's output at node n, channel j. -/
def update (n : Fin 50000) (j : Fin 128) : EReal :=
  dense2 (fun k => H (ix2 n k)) (fun k => WU (ix2 (loU k) j))
    (fun k => gathered H Xe I D WM bM n k) (fun k => WU (ix2 (hiU k) j)) (bU (ix1 j))

/-- The layer's output array. -/
def layer : (⟨2, ![50000, 128]⟩ : Shape).Idx → EReal := fun i => update H Xe I D WM bM WU bU (i 0) (i 1)

end

end Cert.Layer

end
-- ==== Proof.LibTakeFill.lean ====
/-
  A row take that fills out-of-range rows, when no row is out of range.

  `jnp.take(table, idx, axis=0)` in its default mode first adds the table's height to a negative row number, then gathers the
  rows, and finally replaces every row whose (shifted) number is outside [0, height − 1] by a fill value: it prints as a gather, a
  row mask (the conjunction of two comparisons of the shifted number, reduced over the index column of extent 1, broadcast
  along the row) and a select. When every row number lies in [0, 50000) for a table of 50000 rows, the shift changes nothing,
  both comparisons hold at every row, the mask is all ones and the select answers the gather.
-/
import Idealize.ShloMosaic.PureOps
import Idealize.ShloMosaic.PureOps.Reduce
import Idealize.ShloMosaic.Lib.ValueIdx
import Idealize.ShloMosaic.Lib.Pipeline.Value
import Idealize.ShloMosaic.Lib.Affine
import Idealize.ShloMosaic.Lib.ReduceAll
import Idealize.ShloMosaic.Lib.StableHlo.Predicate

noncomputable section

namespace Cert.LibTakeFill

open Idealize.ShloMosaic Idealize.ShloMosaic.ValueIdx

/-- The row numbers of a take after the shift of the negative ones by the table's 50000 rows, as the programs print it. -/
abbrev shifted {n : Nat} (hb0 : (⟨0, ![]⟩ : Shape).BroadcastsInDim ⟨1, ![n]⟩ ![]) (I : IVec ⟨1, ![n]⟩ 32) : IVec ⟨1, ![n]⟩ 32 :=
  select (cmpi .slt I (broadcastInDim ⟨1, ![n]⟩ ![] hb0 (constantI ⟨0, ![]⟩ 32 0#32)))
    (addi I (broadcastInDim ⟨1, ![n]⟩ ![] hb0 (constantI ⟨0, ![]⟩ 32 50000#32))) I

/-- A word in [0, 50000) is not shifted. -/
theorem shifted_apply {n : Nat} (hb0 : (⟨0, ![]⟩ : Shape).BroadcastsInDim ⟨1, ![n]⟩ ![]) (I : IVec ⟨1, ![n]⟩ 32) (e : Fin n)
    (hI : 0 ≤ (I (ix1 e)).toInt ∧ (I (ix1 e)).toInt < 50000) : shifted hb0 I (ix1 e) = I (ix1 e) := by
  have h0 : (0#32 : BitVec 32).toInt = 0 := by decide
  -- the word is not negative, so the test "below zero" answers the bit 0 and the select keeps the word
  have hc : IntOp.cmpi .slt (I (ix1 e)) 0#32 = 0#1 :=
    eq_zero_of_ne_one (fun hc => by rw [IntOp.cmpi_slt, h0] at hc; omega)
  show Scalar.select (IntOp.cmpi .slt (I (ix1 e)) 0#32) _ (I (ix1 e)) = I (ix1 e)
  rw [hc]
  exact select_zero _ _

/-- When every row number is in [0, 50000) the shifted vector is the vector, at every index. -/
theorem shifted_idx {n : Nat} (hb0 : (⟨0, ![]⟩ : Shape).BroadcastsInDim ⟨1, ![n]⟩ ![]) (I : IVec ⟨1, ![n]⟩ 32)
    (hI : ∀ e : Fin n, 0 ≤ (I (ix1 e)).toInt ∧ (I (ix1 e)).toInt < 50000) (k : (⟨1, ![n]⟩ : Shape).Idx) :
    shifted hb0 I k = I (ix1 (k 0)) := by
  obtain ⟨r, rfl⟩ : ∃ r, k = ix1 r := ⟨_, eq_ix1 k⟩
  exact shifted_apply hb0 I r (hI r)

/-- A left fold by `and` from the bit 1 over a list whose every entry is the bit 1 is the bit 1. -/
theorem foldl_andi_ones {ι : Type} (f : ι → BitVec 1) :
    ∀ l : List ι, (∀ a ∈ l, f a = 1#1) → l.foldl (fun r a => IntOp.andi r (f a)) 1#1 = 1#1
  | [], _ => rfl
  | a :: l, h => by
    have ha : IntOp.andi 1#1 (f a) = 1#1 := by rw [h a (by simp)]; rfl
    rw [List.foldl_cons, ha]
    exact foldl_andi_ones f l (fun b hb => h b (List.mem_cons_of_mem _ hb))

/-- An and-reduction from the bit 1 of an array whose every entry is the bit 1 is the bit 1 at every result index
    (the converse of reading a conjunction back: here the conjuncts are known and the conjunction is concluded). -/
theorem reduce_andi_ones {s t u : Shape} {axes : List (Fin s.rank)} (x : s.Idx → BitVec 1) (init : u.Idx → BitVec 1)
    (h : s.ReducesTo axes t) (hu : 0 < u.numel) (hx : ∀ i, x i = 1#1) (hinit : ∀ i, init i = 1#1) (j : t.Idx) :
    Host.reduce IntOp.andi x init h hu j = 1#1 := by
  rw [Host.reduce_eq_foldl, hinit]
  exact foldl_andi_ones x _ (fun a _ => hx a)

/-- A broadcast of an array of bits that are all 1 reads 1 everywhere. -/
theorem bcast_ones {s t : Shape} (dims : Fin s.rank → Fin t.rank) (h : s.BroadcastsInDim t dims) (R : s.Idx → BitVec 1)
    (hR : ∀ k, R k = 1#1) (j : t.Idx) : broadcastInDim t dims h R j = 1#1 := hR _

/-- The two comparisons of the take's mask hold at every row: the column of shifted row numbers is the column of the
    row numbers themselves, each at least 0 and at most 49999. -/
theorem mask_ones {n : Nat} (hb0 : (⟨0, ![]⟩ : Shape).BroadcastsInDim ⟨1, ![n]⟩ ![])
    (hb5 : (⟨1, ![n]⟩ : Shape).BroadcastsInDim ⟨2, ![n, 1]⟩ ![0])
    (hb6 : (⟨0, ![]⟩ : Shape).BroadcastsInDim ⟨2, ![n, 1]⟩ ![])
    (hb8 : (⟨1, ![1]⟩ : Shape).BroadcastsInDim ⟨2, ![1, 1]⟩ ![1])
    (hb9 : (⟨2, ![1, 1]⟩ : Shape).BroadcastsInDim ⟨2, ![n, 1]⟩ ![0, 1])
    (I : IVec ⟨1, ![n]⟩ 32) (hI : ∀ e : Fin n, 0 ≤ (I (ix1 e)).toInt ∧ (I (ix1 e)).toInt < 50000)
    (i : (⟨2, ![n, 1]⟩ : Shape).Idx) :
    andi (cmpi .sge (broadcastInDim ⟨2, ![n, 1]⟩ ![0] hb5 (shifted hb0 I))
            (broadcastInDim ⟨2, ![n, 1]⟩ ![] hb6 (constantI ⟨0, ![]⟩ 32 0#32)))
          (cmpi .sle (broadcastInDim ⟨2, ![n, 1]⟩ ![0] hb5 (shifted hb0 I))
            (broadcastInDim ⟨2, ![n, 1]⟩ ![0, 1] hb9 (broadcastInDim ⟨2, ![1, 1]⟩ ![1] hb8 (constantI ⟨1, ![1]⟩ 32 49999#32)))) i
      = 1#1 := by
  have h0 : (0#32 : BitVec 32).toInt = 0 := by decide
  have h1 : (49999#32 : BitVec 32).toInt = 49999 := by decide
  -- the column's entry at this row is one of the row numbers
  obtain ⟨e, he⟩ : ∃ e : Fin n, broadcastInDim ⟨2, ![n, 1]⟩ ![0] hb5 (shifted hb0 I) i = I (ix1 e) :=
    ⟨_, shifted_idx hb0 I hI _⟩
  -- both constants read their word at every index
  show IntOp.andi (IntOp.cmpi .sge (broadcastInDim ⟨2, ![n, 1]⟩ ![0] hb5 (shifted hb0 I) i) 0#32)
      (IntOp.cmpi .sle (broadcastInDim ⟨2, ![n, 1]⟩ ![0] hb5 (shifted hb0 I) i) 49999#32) = 1#1
  rw [he, IntOp.andi_eq_one, IntOp.cmpi_sge, IntOp.cmpi_sle, h0, h1]
  have := hI e
  omega

/-- THE FILLING TAKE IS THE GATHER when every row number is in [0, 50000): the printed chain of a default-mode
    `jnp.take` along axis 0 of a table of 50000 rows (gather; mask = reduce-and over the index column of
    (shifted ≥ 0) and (shifted ≤ 49999), broadcast along the row; select against the fill) answers the gather. -/
theorem takeFill_eq_gather {α : Type} {N D n : Nat} (d : GatherDims ⟨2, ![N, D]⟩ ⟨2, ![n, 1]⟩ ⟨2, ![n, D]⟩)
    (hb0 : (⟨0, ![]⟩ : Shape).BroadcastsInDim ⟨1, ![n]⟩ ![])
    (hb5 : (⟨1, ![n]⟩ : Shape).BroadcastsInDim ⟨2, ![n, 1]⟩ ![0])
    (hb6 : (⟨0, ![]⟩ : Shape).BroadcastsInDim ⟨2, ![n, 1]⟩ ![])
    (hb8 : (⟨1, ![1]⟩ : Shape).BroadcastsInDim ⟨2, ![1, 1]⟩ ![1])
    (hb9 : (⟨2, ![1, 1]⟩ : Shape).BroadcastsInDim ⟨2, ![n, 1]⟩ ![0, 1])
    (hred : (⟨2, ![n, 1]⟩ : Shape).ReducesTo [1] ⟨1, ![n]⟩) (hu : 0 < (⟨0, ![]⟩ : Shape).numel)
    (hb14 : (⟨1, ![n]⟩ : Shape).BroadcastsInDim ⟨2, ![n, D]⟩ ![0])
    (x : (⟨2, ![N, D]⟩ : Shape).Idx → α) (fill : (⟨2, ![n, D]⟩ : Shape).Idx → α) (I : IVec ⟨1, ![n]⟩ 32)
    (hI : ∀ e : Fin n, 0 ≤ (I (ix1 e)).toInt ∧ (I (ix1 e)).toInt < 50000) :
    select (broadcastInDim ⟨2, ![n, D]⟩ ![0] hb14
        (Host.reduce IntOp.andi
          (andi (cmpi .sge (broadcastInDim ⟨2, ![n, 1]⟩ ![0] hb5 (shifted hb0 I))
                  (broadcastInDim ⟨2, ![n, 1]⟩ ![] hb6 (constantI ⟨0, ![]⟩ 32 0#32)))
                (cmpi .sle (broadcastInDim ⟨2, ![n, 1]⟩ ![0] hb5 (shifted hb0 I))
                  (broadcastInDim ⟨2, ![n, 1]⟩ ![0, 1] hb9 (broadcastInDim ⟨2, ![1, 1]⟩ ![1] hb8 (constantI ⟨1, ![1]⟩ 32 49999#32)))))
          (constantI ⟨0, ![]⟩ 1 1#1) hred hu))
      (Host.gather d x (broadcastInDim ⟨2, ![n, 1]⟩ ![0] hb5 (shifted hb0 I))) fill
    = Host.gather d x (broadcastInDim ⟨2, ![n, 1]⟩ ![0] hb5 (shifted hb0 I)) := by
  funext j
  -- the mask's entry is the bit 1: it is a broadcast of an and-reduction, from 1, of comparisons that all hold
  rw [select_apply,
    bcast_ones ![0] hb14 _ (reduce_andi_ones _ (constantI ⟨0, ![]⟩ 1 1#1) hred hu (mask_ones hb0 hb5 hb6 hb8 hb9 I hI) (fun _ => rfl)) j]
  exact select_one _ _

end Cert.LibTakeFill

end
-- ==== Proof.LibRowTake.lean ====
/-
  A ROW TAKE read at an index.

  `table[idx]` for a rank-2 table `[N, D]` and a vector of `n` row numbers lowers to a `stablehlo.gather` whose
  start indices are the `[n, 1]` column of row numbers: the table's row axis is collapsed and start-indexed, its
  column axis is the result's one offset axis, a slice is one whole row (`slice_sizes = [1, D]`), and the index
  vector lies on axis 1 of the start indices. Result element `(r, c)` is then the table at row `idx[r, 0]`, read as
  a signed integer and clamped into `[0, N − 1]` (a negative row number reads row 0, one past the end the last
  row), and column `c`. `rowTakeDims` are those dimension numbers at any extents and `gather_rowTake_apply` is the
  read.
-/
import Idealize.ShloMosaic.Lib.ValueIdx

namespace Cert.LibRowTake

open Idealize.ShloMosaic Idealize.ShloMosaic.ValueIdx

variable {α : Type}

/-- The dimension numbers of a row take: table `[N, D]`, start indices `[n, 1]`, result `[n, D]`; their conditions
    `wf` are decided on a program's literal shapes. -/
abbrev rowTakeDims (N D n : Nat)
    (wf : GatherDims.WF ⟨2, ![N, D]⟩ ⟨2, ![n, 1]⟩ ⟨2, ![n, D]⟩ [1] [0] [] [0] [] 1 ![1, D]) :
    GatherDims ⟨2, ![N, D]⟩ ⟨2, ![n, 1]⟩ ⟨2, ![n, D]⟩ where
  offsetDims := [1]
  collapsedSliceDims := [0]
  operandBatchingDims := []
  startIndicesBatchingDims := []
  startIndexMap := [0]
  indexVectorDim := 1
  sliceSizes := ![1, D]
  wf := wf

/-- The row axis of the table is start-indexed and collapsed: its coordinate is the clamped start index alone. -/
theorem rowTake_coord0 {N D n w : Nat}
    (wf : GatherDims.WF ⟨2, ![N, D]⟩ ⟨2, ![n, 1]⟩ ⟨2, ![n, D]⟩ [1] [0] [] [0] [] 1 ![1, D])
    (idx : IVec ⟨2, ![n, 1]⟩ w) (r : Fin n) (c : Fin D) :
    ((rowTakeDims N D n wf).operandIdx (ix2 r c) idx 0).val = min (idx (ix2 r (0 : Fin 1))).toInt.toNat (N - 1) := by
  show (rowTakeDims N D n wf).start (ix2 r c) idx 0 + (rowTakeDims N D n wf).batchCoord (ix2 r c) 0
      + (rowTakeDims N D n wf).offCoord (ix2 r c) 0 = _
  have hk : (0 : Fin 2) ∉ (rowTakeDims N D n wf).sKept := fun hm =>
    ((GatherDims.mem_sKept _ _).1 hm).1 (List.mem_singleton.2 rfl)
  rw [GatherDims.batchCoord_eq_zero _ _ _ List.not_mem_nil, GatherDims.offCoord_eq_zero _ _ _ hk]
  simp only [Nat.add_zero]
  have hm : (0 : Fin 2) ∈ (rowTakeDims N D n wf).startIndexMap := List.mem_singleton.2 rfl
  unfold GatherDims.start
  rw [dif_pos hm]
  have hsi : (rowTakeDims N D n wf).siIdx (ix2 r c) ⟨List.idxOf (0 : Fin 2) (rowTakeDims N D n wf).startIndexMap,
      List.idxOf_lt_length_iff.2 hm⟩ = ix2 r (0 : Fin 1) := by
    funext b
    refine Fin.ext ?_
    match b with
    | ⟨0, _⟩ => rfl
    | ⟨1, _⟩ => rfl
  rw [hsi]
  rfl

/-- The column axis of the table is the slice's one kept axis, not start-indexed: its coordinate is the result's
    offset coordinate alone. -/
theorem rowTake_coord1 {N D n w : Nat}
    (wf : GatherDims.WF ⟨2, ![N, D]⟩ ⟨2, ![n, 1]⟩ ⟨2, ![n, D]⟩ [1] [0] [] [0] [] 1 ![1, D])
    (idx : IVec ⟨2, ![n, 1]⟩ w) (r : Fin n) (c : Fin D) :
    ((rowTakeDims N D n wf).operandIdx (ix2 r c) idx 1).val = c.val := by
  show (rowTakeDims N D n wf).start (ix2 r c) idx 1 + (rowTakeDims N D n wf).batchCoord (ix2 r c) 1
      + (rowTakeDims N D n wf).offCoord (ix2 r c) 1 = _
  have h10 : ¬ (1 : Fin 2) = 0 := fun e => absurd (congrArg Fin.val e) Nat.one_ne_zero
  have hm : (1 : Fin 2) ∉ (rowTakeDims N D n wf).startIndexMap := fun hm => h10 (List.mem_singleton.1 hm)
  have hs : (rowTakeDims N D n wf).start (ix2 r c) idx 1 = 0 := by
    unfold GatherDims.start
    rw [dif_neg hm]
  rw [hs, GatherDims.batchCoord_eq_zero _ _ _ List.not_mem_nil]
  simp only [Nat.zero_add]
  have hk : (1 : Fin 2) ∈ (rowTakeDims N D n wf).sKept :=
    (GatherDims.mem_sKept _ _).2 ⟨fun h => h10 (List.mem_singleton.1 h), List.not_mem_nil⟩
  unfold GatherDims.offCoord
  rw [dif_pos hk]
  rfl

/-- THE ROW TAKE READ AT `(r, c)`: the table at the row the start index `idx[r, 0]` names, read signed and clamped
    into `[0, N − 1]`, and column `c`. -/
theorem gather_rowTake_apply {N D n w : Nat} (hN : 0 < N)
    (wf : GatherDims.WF ⟨2, ![N, D]⟩ ⟨2, ![n, 1]⟩ ⟨2, ![n, D]⟩ [1] [0] [] [0] [] 1 ![1, D])
    (x : (⟨2, ![N, D]⟩ : Shape).Idx → α) (idx : IVec ⟨2, ![n, 1]⟩ w) (r : Fin n) (c : Fin D) :
    Host.gather (rowTakeDims N D n wf) x idx (ix2 r c)
      = x (ix2 ⟨min (idx (ix2 r (0 : Fin 1))).toInt.toNat (N - 1), by omega⟩ c) := by
  show x ((rowTakeDims N D n wf).operandIdx (ix2 r c) idx) = _
  congr 1
  funext a
  refine Fin.ext ?_
  match a with
  | ⟨0, _⟩ => exact rowTake_coord0 wf idx r c
  | ⟨1, _⟩ => exact rowTake_coord1 wf idx r c

end Cert.LibRowTake
-- ==== Proof.Reads.lean ====
/-
  The tiled program's host-side arrays read at an index: which entry of an input array each entry is.
-/
import proofs.«427579_j16630113370839_2_alg».proof.Proof.HostTerms
import proofs.«427579_j16630113370839_2_alg».proof.Proof.Layer
import proofs.«427579_j16630113370839_2_alg».proof.Proof.LibTakeFill
import proofs.«427579_j16630113370839_2_alg».proof.Proof.LibRowTake
import Idealize.ShloMosaic.Lib.Pipeline.Value
import Idealize.ShloMosaic.Lib.ValueLayout

noncomputable section

open scoped BigOperators

namespace Cert.KernelIdeal.Reads

open Cert.KernelIdeal Cert.KernelIdeal.Host Idealize.ShloMosaic Idealize.ShloMosaic.ValueIdx Cert.Layer

/-! ## The cut weight matrices and the bias rows -/

theorem wm1_apply (WM : FVec Ideal S160x128 .f32) (k : Fin 128) (j : Fin 128) : wm1 WM (ix2 k j) = WM (ix2 (loM k) j) := by
  unfold wm1
  exact extractStridedSlice_apply ![0, 0] _ Facts₀.slices_S160x128_S128x128_0_0 (ix2 k j) (ix2 (loM k) j) (fun a => match a with
    | ⟨0, _⟩ => by show k.val = 0 + k.val; omega
    | ⟨1, _⟩ => by show j.val = 0 + j.val; omega)
theorem wm2_apply (WM : FVec Ideal S160x128 .f32) (k : Fin 32) (j : Fin 128) : wm2 WM (ix2 k j) = WM (ix2 (hiM k) j) := by
  unfold wm2
  exact extractStridedSlice_apply ![128, 0] _ Facts₀.slices_S160x128_S32x128_128_0 (ix2 k j) (ix2 (hiM k) j) (fun a => match a with
    | ⟨0, _⟩ => by show 128 + k.val = 128 + k.val; omega
    | ⟨1, _⟩ => by show j.val = 0 + j.val; omega)
theorem wu1_apply (WU : FVec Ideal S256x128 .f32) (k : Fin 128) (j : Fin 128) : wu1 WU (ix2 k j) = WU (ix2 (loU k) j) := by
  unfold wu1
  exact extractStridedSlice_apply ![0, 0] _ Facts₀.slices_S256x128_S128x128_0_0 (ix2 k j) (ix2 (loU k) j) (fun a => match a with
    | ⟨0, _⟩ => by show k.val = 0 + k.val; omega
    | ⟨1, _⟩ => by show j.val = 0 + j.val; omega)
theorem wu2_apply (WU : FVec Ideal S256x128 .f32) (k : Fin 128) (j : Fin 128) : wu2 WU (ix2 k j) = WU (ix2 (hiU k) j) := by
  unfold wu2
  exact extractStridedSlice_apply ![128, 0] _ Facts₀.slices_S256x128_S128x128_128_0 (ix2 k j) (ix2 (hiU k) j) (fun a => match a with
    | ⟨0, _⟩ => by show 128 + k.val = 128 + k.val; omega
    | ⟨1, _⟩ => by show j.val = 0 + j.val; omega)
theorem bias2_apply (b : FVec Ideal S128 .f32) (j : Fin 128) : bias2 b (ix2 (0 : Fin 1) j) = b (ix1 j) := by
  unfold bias2
  exact shapeCast_apply b Facts₀.shapeCasts_S128_S1x128 (ix2 (0 : Fin 1) j) (ix1 j)
    (by rewrite [Shape.rowMajor_val_one, Shape.rowMajor_val_two]; show j.val = 0 * 128 + j.val; omega)

/-! ## The source and destination words and their padding -/

theorem srcVec_eq (idX : IVec S2x500000 32) : Host.srcVec idX = Cert.Layer.srcVec idX := by
  rfl
theorem dstVec_eq (idX : IVec S2x500000 32) : Host.dstVec idX = Cert.Layer.dstVec idX := by
  rfl
/-- Below 500000 the padded source words are the source words. -/
theorem srcPad_left (idX : IVec S2x500000 32) (e : Fin 500000) :
    srcPad idX (ix1 (⟨e.val, by omega⟩ : Fin 503808)) = Host.srcVec idX (ix1 e) := by
  unfold srcPad
  exact concatenate_pair_apply_left 0 (Host.srcVec idX) _ Facts₀.concatenates_S500000_S3808_S503808_d0 _ rfl (ix1 e)
    (fun b => match b with | ⟨0, _⟩ => rfl)
/-- From 500000 on they are 0. -/
theorem srcPad_right (idX : IVec S2x500000 32) (e : Fin 3808) :
    srcPad idX (ix1 (⟨500000 + e.val, by omega⟩ : Fin 503808)) = 0#32 := by
  unfold srcPad
  refine (concatenate_pair_apply_right 0 (Host.srcVec idX) _ Facts₀.concatenates_S500000_S3808_S503808_d0 _ rfl rfl (ix1 e)
    (fun b hb => match b, hb with | ⟨0, _⟩, hb => absurd rfl hb) ?_).trans ?_
  · show e.val + 500000 = 500000 + e.val
    omega
  · exact broadcastInDim_apply _ Facts₀.bcast_S_S3808 _ (ix1 e) (fun a => a.elim0) (fun a => a.elim0)
/-- Below 500000 the padded destination words are the destination words. -/
theorem dstPad_left (idX : IVec S2x500000 32) (e : Fin 500000) :
    dstPad idX (ix1 (⟨e.val, by omega⟩ : Fin 503808)) = Host.dstVec idX (ix1 e) := by
  unfold dstPad
  exact concatenate_pair_apply_left 0 (Host.dstVec idX) _ Facts₀.concatenates_S500000_S3808_S503808_d0 _ rfl (ix1 e)
    (fun b => match b with | ⟨0, _⟩ => rfl)
/-- From 500000 on they are 50000. -/
theorem dstPad_right (idX : IVec S2x500000 32) (e : Fin 3808) :
    dstPad idX (ix1 (⟨500000 + e.val, by omega⟩ : Fin 503808)) = 50000#32 := by
  unfold dstPad
  refine (concatenate_pair_apply_right 0 (Host.dstVec idX) _ Facts₀.concatenates_S500000_S3808_S503808_d0 _ rfl rfl (ix1 e)
    (fun b hb => match b, hb with | ⟨0, _⟩, hb => absurd rfl hb) ?_).trans ?_
  · show e.val + 500000 = 500000 + e.val
    omega
  · exact broadcastInDim_apply _ Facts₀.bcast_S_S3808 _ (ix1 e) (fun a => a.elim0) (fun a => a.elim0)
/-- The column of padded destination words reads the word of its row. -/
theorem dstCol_apply (idX : IVec S2x500000 32) (e : Fin 503808) :
    broadcastInDim S503808x1 ![0] Facts₀.bcast_S503808_S503808x1_0 (dstPad idX) (ix2 e (0 : Fin 1)) = dstPad idX (ix1 e) := by
  exact broadcastInDim_apply _ Facts₀.bcast_S503808_S503808x1_0 (dstPad idX) (ix2 e (0 : Fin 1)) (ix1 e) (fun a => match a with
    | ⟨0, _⟩ => by show e.val = if (503808 : Nat) = 1 then 0 else e.val; rw [if_neg (by decide)])
/-- Below 500000 the padded edge rows are the edge rows. -/
theorem xePad_left (Xe : FVec Ideal S500000x32 .f32) (e : Fin 500000) (k : Fin 32) :
    xePad Xe (ix2 (⟨e.val, by omega⟩ : Fin 503808) k) = Xe (ix2 e k) := by
  unfold xePad
  exact concatenate_pair_apply_left 0 Xe _ Facts₀.concatenates_S500000x32_S3808x32_S503808x32_d0 _ rfl (ix2 e k)
    (fun b => match b with | ⟨0, _⟩ => rfl | ⟨1, _⟩ => rfl)

/-! ## The filling take -/

/-- When every word names a node, the filling take reads the node row the word names. -/
theorem feats_apply (H : FVec Ideal S50000x128 .f32) (J : IVec S503808 32)
    (hJ : ∀ e : Fin 503808, 0 ≤ (J (ix1 e)).toInt ∧ (J (ix1 e)).toInt < 50000) (e : Fin 503808) (k : Fin 128) :
    feats H J (ix2 e k) = H (ix2 (⟨min (J (ix1 e)).toInt.toNat (50000 - 1), by omega⟩ : Fin 50000) k) := by
  -- every word names a node, so the mask is all ones and the filling take is the take
  have hg : feats H J = Host.gather gather_S50000x128_S503808x1_S503808x128_1_0_n_n_0_1_1128 H (takeIdx J) :=
    Cert.LibTakeFill.takeFill_eq_gather gather_S50000x128_S503808x1_S503808x128_1_0_n_n_0_1_1128
      Facts₀.bcast_S_S503808 Facts₀.bcast_S503808_S503808x1_0 Facts₀.bcast_S_S503808x1 Facts₀.bcast_S1_S1x1_1
      Facts₀.bcast_S1x1_S503808x1_0_1 Facts₀.reducesTo_S503808x1_S503808_d1 Facts₀.h_S_ Facts₀.bcast_S503808_S503808x128_0
      H _ J hJ
  -- the column of row numbers reads, at row e, the word of e, which is not shifted
  have hidx : takeIdx J (ix2 e (0 : Fin 1)) = J (ix1 e) :=
    (broadcastInDim_apply _ Facts₀.bcast_S503808_S503808x1_0 _ (ix2 e (0 : Fin 1)) (ix1 e) (fun a => match a with
      | ⟨0, _⟩ => by show e.val = if (503808 : Nat) = 1 then 0 else e.val; rw [if_neg (by decide)])).trans
      (Cert.LibTakeFill.shifted_apply Facts₀.bcast_S_S503808 J e (hJ e))
  refine (congrFun hg (ix2 e k)).trans ?_
  -- the take reads the row its start index names, kept inside the table
  refine (Cert.LibRowTake.gather_rowTake_apply (N := 50000) (D := 128) (n := 503808) (by decide)
    Facts₀.gather_S50000x128_S503808x1_S503808x128_1_0_n_n_0_1_1128_wf H (takeIdx J) e k).trans ?_
  exact congrArg (fun w : BitVec 32 => H (ix2 (⟨min w.toInt.toNat (50000 - 1), by omega⟩ : Fin 50000) k)) hidx

end Cert.KernelIdeal.Reads

end
-- ==== Proof.LibMatmulAt.lean ====
/-
  A `tpu.matmul` into a zero accumulator, read at an output index, at the ideal instance: the plain sum of products
  over the one contracted axis, for the two rank-2 layouts a kernel uses.

  * `transposedRhs M K N` contracts the last axis of an M×K left operand with the last axis of an N×K right operand:
      out (p, q) = ∑ k, l (p, k) · r (q, k).
  * `plain M K N` contracts the last axis of an M×K left operand with the first axis of a K×N right operand:
      out (p, q) = ∑ k, l (p, k) · r (k, q).
  Both are stated for every M, K, N and every pair of operand formats, so one statement serves every tiling; a printed
  record with the same dimension numbers is one of these two by `rfl`.
-/
import Idealize.ShloMosaic.PureOps.Ideal.Laws
import Idealize.ShloMosaic.Lib.ValueIdx

noncomputable section

open scoped BigOperators

namespace Idealize.ShloMosaic.MatmulAt

open Idealize.ShloMosaic Idealize.ShloMosaic.ValueIdx

variable {M K N : Nat}

/-! ### Last axis with last axis -/

theorem tr_lhs_0 (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

theorem tr_lhs_1 (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q

theorem tr_rhs_0 (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

theorem tr_rhs_1 (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

/-- `out (p, q) = ∑ k, l (p, k) · r (q, k)`. -/
theorem matmul_transposedRhs_apply {φ₁ φ₂ : FTy} (prec : Option ContractPrecision)
    (l : FVec Ideal ⟨2, ![M, K]⟩ φ₁) (r : FVec Ideal ⟨2, ![N, K]⟩ φ₂) (p : Fin M) (q : Fin N) :
    FloatOps.matmul (DotDims.transposedRhs M K N) prec l r (constant ⟨2, ![M, N]⟩ .f32 0x00000000#32) (ix2 p q)
      = ∑ k : Fin K, l (ix2 p k) * r (ix2 q k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact tr_lhs_0 _ _
      | ⟨1, _⟩ => exact (tr_lhs_1 _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact tr_rhs_0 _ _
      | ⟨1, _⟩ => exact (tr_rhs_1 _ _).trans hk)
  rw [el, er]

/-! ### Last axis with first axis -/

theorem pl_lhs_0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem pl_lhs_1 (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

theorem pl_rhs_0 (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

theorem pl_rhs_1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- `out (p, q) = ∑ k, l (p, k) · r (k, q)`. -/
theorem matmul_plain_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact pl_lhs_0 _ _
      | ⟨1, _⟩ => exact (pl_lhs_1 _ _).trans hk)
  have er : (DotDims.plain M K N).rhsIdx (ix2 p q) ((contrEquiv1 (DotDims.plain M K N) K rfl rfl).symm k) = ix2 k q :=
    funext fun a => Fin.ext (by
      match a with
      | ⟨0, _⟩ => exact (pl_rhs_0 _ _).trans hk
      | ⟨1, _⟩ => exact pl_rhs_1 _ _)
  rw [el, er]

end Idealize.ShloMosaic.MatmulAt

end
-- ==== Proof.Payload.lean ====
/-
  The two tile bodies read at an index: each is an affine map of a row in two parts followed by a clamp at zero.
-/
import proofs.«427579_j16630113370839_2_alg».proof.Proof.Gen.KernelIdeal.Skeleton
import proofs.«427579_j16630113370839_2_alg».proof.Proof.Layer
import proofs.«427579_j16630113370839_2_alg».proof.Proof.LibMatmulAt
import Idealize.ShloMosaic.Lib.Pipeline.Value
import Idealize.ShloMosaic.Lib.ValueLayout

noncomputable section

open scoped BigOperators

namespace Cert.KernelIdeal.Payload

open Cert.KernelIdeal Cert.KernelIdeal.Gen Idealize.ShloMosaic Idealize.ShloMosaic.ValueIdx Cert.Layer

/-- The first tile body at row p, column q of its 4096 x 128 tile: the node rows x0 against the upper weights x2, the edge
    rows x1 against the lower weights x3, the bias row x4, clamped at zero. -/
theorem pay0_apply (x0 : Vec Ideal S4096x128 .f32) (x1 : Vec Ideal S4096x32 .f32) (x2 : Vec Ideal S128x128 .f32)
    (x3 : Vec Ideal S32x128 .f32) (x4 : Vec Ideal S1x128 .f32) (p : Fin 4096) (q : Fin 128) :
    k0_pay1 (F := Ideal) x0 x1 x2 x3 x4 (ix2 p q)
      = dense2 (fun k : Fin 128 => x0 (ix2 p k)) (fun k => x2 (ix2 k q)) (fun k : Fin 32 => x1 (ix2 p k)) (fun k => x3 (ix2 k q))
          (x4 (ix2 (0 : Fin 1) q)) := by
  unfold k0_pay1 dense2
  simp only [shapeCast_self]
  rw [maximumf_apply, addf_apply, addf_apply, broadcast_apply]
  -- the clamp, the bias and the two products are read one by one
  refine congrArg₂ max (congrArg₂ (· + ·) (congrArg₂ (· + ·) ?_ ?_) ?_) rfl
  · exact Idealize.ShloMosaic.MatmulAt.matmul_plain_apply none _ _ p q
  · exact Idealize.ShloMosaic.MatmulAt.matmul_plain_apply none _ _ p q
  · exact broadcastTo_1b_ab_apply _ _ p q

/-- The second tile body at row p, column q of its 5000 x 128 tile. -/
theorem pay1_apply (x0 : Vec Ideal S5000x128 .f32) (x1 : Vec Ideal S5000x128 .f32) (x2 : Vec Ideal S128x128 .f32)
    (x3 : Vec Ideal S128x128 .f32) (x4 : Vec Ideal S1x128 .f32) (p : Fin 5000) (q : Fin 128) :
    k1_pay1 (F := Ideal) x0 x1 x2 x3 x4 (ix2 p q)
      = dense2 (fun k : Fin 128 => x0 (ix2 p k)) (fun k => x2 (ix2 k q)) (fun k : Fin 128 => x1 (ix2 p k)) (fun k => x3 (ix2 k q))
          (x4 (ix2 (0 : Fin 1) q)) := by
  unfold k1_pay1 dense2
  simp only [shapeCast_self]
  rw [maximumf_apply, addf_apply, addf_apply, broadcast_apply]
  refine congrArg₂ max (congrArg₂ (· + ·) (congrArg₂ (· + ·) ?_ ?_) ?_) rfl
  · exact Idealize.ShloMosaic.MatmulAt.matmul_plain_apply none _ _ p q
  · exact Idealize.ShloMosaic.MatmulAt.matmul_plain_apply none _ _ p q
  · exact broadcastTo_1b_ab_apply _ _ p q

end Cert.KernelIdeal.Payload

end
-- ==== Proof.Region0.lean ====
/-
  The array tiled map 0 leaves, read at an index: the 503808 rows are cut in tiles of 4096, tile t is written back at
  grid point t, and every entry is the tile body's value at the entry's row of the row-tiled inputs and its column of
  the inputs held whole.
-/
import proofs.«427579_j16630113370839_2_alg».proof.Proof.Gen.KernelIdeal.Frame
import proofs.«427579_j16630113370839_2_alg».proof.Proof.Payload
import Idealize.ShloMosaic.Lib.Pipeline.Value

noncomputable section

open scoped BigOperators

namespace Cert.KernelIdeal.Region0

open Cert.KernelIdeal Cert.KernelIdeal.Gen Idealize.ShloMosaic Idealize.ShloMosaic.TcCoe Idealize.ShloMosaic.ValueIdx Idealize.ShloMosaic.Pipeline Idealize.SL.Sem Cert.Layer

variable (V : (c : Dev nD) → (b : Ref sig .tc) → Buf (Elt Ideal) ((c : Thread nD τ).loc b))

theorem zero_offsets : (![0, 0] : Fin 2 → Nat) = fun _ => 0 := funext fun a => by fin_cases a <;> rfl

/-- The block index of every window at every grid point: the row-tiled windows 0, 1 and 5 are at tile (t, 0), the
    windows 2, 3 and 4 over the arrays held whole stay at block (0, 0). -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The whole output array as one function of the contents the region finds: entry i is the affine map and clamp of
    row i 0 of the two row-tiled inputs against column i 1 of the weights and the bias. -/
def G (c : Dev nD) : S503808x128.Idx → EReal := fun i =>
  dense2 (fun k : Fin 128 => (V c main_v10 : S503808x128.Idx → EReal) (ix2 (⟨(i 0).val, idx2_lt0 i⟩ : Fin 503808) k))
    (fun k : Fin 128 => (V c main_v11 : S128x128.Idx → EReal) (ix2 k (⟨(i 1).val, idx2_lt1 i⟩ : Fin 128)))
    (fun k : Fin 32 => (V c main_v9 : S503808x32.Idx → EReal) (ix2 (⟨(i 0).val, idx2_lt0 i⟩ : Fin 503808) k))
    (fun k : Fin 32 => (V c main_v12 : S32x128.Idx → EReal) (ix2 k (⟨(i 1).val, idx2_lt1 i⟩ : Fin 128)))
    ((V c main_v13 : S1x128.Idx → EReal) (ix2 (0 : Fin 1) (⟨(i 1).val, idx2_lt1 i⟩ : Fin 128)))

/-- Window 0's block at point t is rows 4096 t … 4096 t + 4095 of the node-row array. -/
theorem block0_apply (c : Dev nD) (t : Fin cfg0.N) (x : S4096x128.Idx) (i : S503808x128.Idx)
    (h0 : (i 0).val = t.val * 4096 + (x 0).val) (h1 : (i 1).val = (x 1).val) :
    (iblk0 V c 0 t : S4096x128.Idx → EReal) x = (V c main_v10 : S503808x128.Idx → EReal) i := by
  obtain ⟨e0, e1, -⟩ := block_index t
  unfold iblk0
  rw [View.read_apply]
  show (V c main_v10 : S503808x128.Idx → EReal) _ = V c main_v10 i
  congr 1
  funext a
  apply Fin.ext
  match a with
  | ⟨0, _⟩ => show win0_0.index t (0 : Fin 2) * 4096 + 1 * (x 0).val = (i 0).val; rw [e0, h0]; omega
  | ⟨1, _⟩ => show win0_0.index t (1 : Fin 2) * 128 + 1 * (x 1).val = (i 1).val; rw [e1, h1]; omega

/-- Window 1's block at point t is rows 4096 t … 4096 t + 4095 of the edge-row array. -/
theorem block1_apply (c : Dev nD) (t : Fin cfg0.N) (x : S4096x32.Idx) (i : S503808x32.Idx)
    (h0 : (i 0).val = t.val * 4096 + (x 0).val) (h1 : (i 1).val = (x 1).val) :
    (iblk0 V c 1 t : S4096x32.Idx → EReal) x = (V c main_v9 : S503808x32.Idx → EReal) i := by
  obtain ⟨-, -, e0, e1, -⟩ := block_index t
  unfold iblk0
  rw [View.read_apply]
  show (V c main_v9 : S503808x32.Idx → EReal) _ = V c main_v9 i
  congr 1
  funext a
  apply Fin.ext
  match a with
  | ⟨0, _⟩ => show win0_1.index t (0 : Fin 2) * 4096 + 1 * (x 0).val = (i 0).val; rw [e0, h0]; omega
  | ⟨1, _⟩ => show win0_1.index t (1 : Fin 2) * 32 + 1 * (x 1).val = (i 1).val; rw [e1, h1]; omega

/-- Window 2's block at every point is the whole upper weight matrix. -/
theorem block2_apply (c : Dev nD) (t : Fin cfg0.N) (x : S128x128.Idx) :
    (iblk0 V c 2 t : S128x128.Idx → EReal) x = (V c main_v11 : S128x128.Idx → EReal) x := by
  obtain ⟨-, -, -, -, e0, e1, -⟩ := block_index t
  unfold iblk0
  rw [View.read_apply]
  show (V c main_v11 : S128x128.Idx → EReal) _ = V c main_v11 x
  congr 1
  funext a
  apply Fin.ext
  match a with
  | ⟨0, _⟩ => show win0_2.index t (0 : Fin 2) * 128 + 1 * (x 0).val = (x 0).val; rw [e0]; omega
  | ⟨1, _⟩ => show win0_2.index t (1 : Fin 2) * 128 + 1 * (x 1).val = (x 1).val; rw [e1]; omega

/-- Window 3's block at every point is the whole lower weight matrix. -/
theorem block3_apply (c : Dev nD) (t : Fin cfg0.N) (x : S32x128.Idx) :
    (iblk0 V c 3 t : S32x128.Idx → EReal) x = (V c main_v12 : S32x128.Idx → EReal) x := by
  obtain ⟨-, -, -, -, -, -, e0, e1, -⟩ := block_index t
  unfold iblk0
  rw [View.read_apply]
  show (V c main_v12 : S32x128.Idx → EReal) _ = V c main_v12 x
  congr 1
  funext a
  apply Fin.ext
  match a with
  | ⟨0, _⟩ => show win0_3.index t (0 : Fin 2) * 32 + 1 * (x 0).val = (x 0).val; rw [e0]; omega
  | ⟨1, _⟩ => show win0_3.index t (1 : Fin 2) * 128 + 1 * (x 1).val = (x 1).val; rw [e1]; omega

/-- Window 4's block at every point is the whole bias row. -/
theorem block4_apply (c : Dev nD) (t : Fin cfg0.N) (x : S1x128.Idx) :
    (iblk0 V c 4 t : S1x128.Idx → EReal) x = (V c main_v13 : S1x128.Idx → EReal) x := by
  obtain ⟨-, -, -, -, -, -, -, -, e0, e1, -⟩ := block_index t
  unfold iblk0
  rw [View.read_apply]
  show (V c main_v13 : S1x128.Idx → EReal) _ = V c main_v13 x
  congr 1
  funext a
  apply Fin.ext
  match a with
  | ⟨0, _⟩ => show win0_4.index t (0 : Fin 2) * 1 + 1 * (x 0).val = (x 0).val; rw [e0]; omega
  | ⟨1, _⟩ => show win0_4.index t (1 : Fin 2) * 128 + 1 * (x 1).val = (x 1).val; rw [e1]; omega

/-- The affine map and clamp of equal rows, weights and bias are equal. -/
theorem dense2_congr {K1 K2 : Nat} {a a' w1 w1' : Fin K1 → EReal} {b b' w2 w2' : Fin K2 → EReal} {bias bias' : EReal}
    (ha : ∀ k, a k = a' k) (hw1 : ∀ k, w1 k = w1' k) (hb : ∀ k, b k = b' k) (hw2 : ∀ k, w2 k = w2' k)
    (hbias : bias = bias') : dense2 a w1 b w2 bias = dense2 a' w1' b' w2' bias' := by
  rw [funext ha, funext hw1, funext hb, funext hw2, hbias]

/-- Entry (p, q) of what the tile body leaves at point t is entry (4096 t + p, q) of G. -/
theorem tile_entry (c : Dev nD) (t : Fin cfg0.N) (p : Fin 4096) (q : Fin 128) (i : S503808x128.Idx)
    (h0 : (i 0).val = t.val * 4096 + p.val) (h1 : (i 1).val = q.val) :
    k0_pay1 (F := Ideal) (iblk0 V c 0 t) (iblk0 V c 1 t) (iblk0 V c 2 t) (iblk0 V c 3 t) (iblk0 V c 4 t) (ix2 p q)
      = G V c i := by
  have hq : (⟨(i 1).val, idx2_lt1 i⟩ : Fin 128) = q := Fin.ext h1
  refine (Payload.pay0_apply _ _ _ _ _ p q).trans ?_
  unfold G
  rw [hq]
  exact dense2_congr (fun k => block0_apply V c t (ix2 p k) _ h0 rfl) (fun k => block2_apply V c t (ix2 k q))
    (fun k => block1_apply V c t (ix2 p k) _ h0 rfl) (fun k => block3_apply V c t (ix2 k q))
    (block4_apply V c t (ix2 (0 : Fin 1) q))

/-- What grid point t writes back is tile t of G. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero zero_offsets]
  simp only [View.ld_unit_zero (S := S4096x128) zero_offsets, View.ld_unit_zero (S := S4096x32) zero_offsets,
    View.ld_unit_zero (S := S128x128) zero_offsets, View.ld_unit_zero (S := S32x128) zero_offsets,
    View.ld_unit_zero (S := S1x128) zero_offsets]
  obtain ⟨-, -, -, -, -, -, -, -, -, -, e0, e1⟩ := block_index t
  funext j
  show k0_pay1 (F := Ideal) (iblk0 V c 0 t) (iblk0 V c 1 t) (iblk0 V c 2 t) (iblk0 V c 3 t) (iblk0 V c 4 t) (j : S4096x128.Idx)
    = G V c (((cfg0.win 5).blk t).view.emb j)
  refine (congrArg _ (eq_ix2 (n0 := 4096) (n1 := 128) j)).trans (tile_entry V c t (j 0) (j 1) _ ?_ ?_)
  · show win0_5.index t (0 : Fin 2) * 4096 + 1 * (j 0).val = t.val * 4096 + (j 0).val
    rw [e0]; omega
  · show win0_5.index t (1 : Fin 2) * 128 + 1 * (j 1).val = (j 1).val
    rw [e1]; omega

/-- An index of the output array lies in tile t iff each coordinate lies in the tile's range on its axis. -/
theorem mem_tile (t : Fin cfg0.N) (i : S503808x128.Idx) :
    i ∈ ((cfg0.win 5).blk t).view.set ↔ ∀ a : Fin 2, win0_5.index t a * S4096x128.size a ≤ (i a).val
      ∧ (i a).val < win0_5.index t a * S4096x128.size a + S4096x128.size a := by
  show i ∈ ((View.whole main_v14).slice (win0_5.rect t)).set ↔ _
  rw [View.set_slice_whole, Rect.mem_set_unit]
  exact Iff.rfl

/-- Every index of the output array lies in a tile that is written back: row r lies in tile r / 4096. -/
theorem cover (i : S503808x128.Idx) :
    ∃ t : Fin cfg0.N, (cfg0.win 5).flush t = true ∧ i ∈ ((cfg0.win 5).blk t).view.set := by
  have hi0 : (i 0).val < 503808 := idx2_lt0 i
  have hi1 : (i 1).val < 128 := idx2_lt1 i
  obtain ⟨t, ht⟩ : ∃ t : Fin cfg0.N, t.val = (i 0).val / 4096 :=
    ⟨⟨(i 0).val / 4096, lt_of_lt_of_eq (by omega : (i 0).val / 4096 < 123) N_0.symm⟩, rfl⟩
  obtain ⟨-, -, -, -, -, -, -, -, -, -, e0, e1⟩ := block_index t
  refine ⟨t, flush0_5 t, ?_⟩
  rw [mem_tile]
  intro a
  match a with
  | ⟨0, _⟩ =>
    show win0_5.index t (0 : Fin 2) * 4096 ≤ (i 0).val ∧ (i 0).val < win0_5.index t (0 : Fin 2) * 4096 + 4096
    rw [e0, ht]; omega
  | ⟨1, _⟩ =>
    show win0_5.index t (1 : Fin 2) * 128 ≤ (i 1).val ∧ (i 1).val < win0_5.index t (1 : Fin 2) * 128 + 128
    rw [e1]; omega

/-- The output array after the last grid point is G. -/
theorem array_eq (c : Dev nD) : (dat0 (F := Ideal) V c).arrAt 5 cfg0.N = G V c :=
  (dat0 V c).arrAt_eq_of_cover 5 (G V c) (fun t _ => flushed_eq V c t) cover

/-- Entry (p, q) of the output array after the last grid point. -/
theorem array_apply (c : Dev nD) (p : Fin 503808) (q : Fin 128) :
    ((dat0 (F := Ideal) V c).arrAt 5 cfg0.N : S503808x128.Idx → EReal) (ix2 p q)
      = dense2 (fun k : Fin 128 => (V c main_v10 : S503808x128.Idx → EReal) (ix2 p k)) (fun k => (V c main_v11 : S128x128.Idx → EReal) (ix2 k q))
          (fun k : Fin 32 => (V c main_v9 : S503808x32.Idx → EReal) (ix2 p k)) (fun k => (V c main_v12 : S32x128.Idx → EReal) (ix2 k q))
          ((V c main_v13 : S1x128.Idx → EReal) (ix2 (0 : Fin 1) q)) := by
  rw [array_eq]
  rfl

end Cert.KernelIdeal.Region0

end
-- ==== Proof.Region1.lean ====
/-
  The array tiled map 1 leaves, read at an index: the 50000 rows are cut in tiles of 5000, tile t is written back at
  grid point t, and every entry is the tile body's value at the entry's row of the row-tiled inputs and its column of
  the inputs held whole.
-/
import proofs.«427579_j16630113370839_2_alg».proof.Proof.Gen.KernelIdeal.Frame
import proofs.«427579_j16630113370839_2_alg».proof.Proof.Payload
import Idealize.ShloMosaic.Lib.Pipeline.Value

noncomputable section

open scoped BigOperators

namespace Cert.KernelIdeal.Region1

open Cert.KernelIdeal Cert.KernelIdeal.Gen Idealize.ShloMosaic Idealize.ShloMosaic.TcCoe Idealize.ShloMosaic.ValueIdx Idealize.ShloMosaic.Pipeline Idealize.SL.Sem Cert.Layer

variable (V : (c : Dev nD) → (b : Ref sig .tc) → Buf (Elt Ideal) ((c : Thread nD τ).loc b))

theorem zero_offsets : (![0, 0] : Fin 2 → Nat) = fun _ => 0 := funext fun a => by fin_cases a <;> rfl

/-- The block index of every window at every grid point: the row-tiled windows 0, 1 and 5 are at tile (t, 0), the
    windows 2, 3 and 4 over the arrays held whole stay at block (0, 0). -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The whole output array as one function of the contents the region finds: entry i is the affine map and clamp of
    row i 0 of the two row-tiled inputs against column i 1 of the weights and the bias. -/
def G (c : Dev nD) : S50000x128.Idx → EReal := fun i =>
  dense2 (fun k : Fin 128 => (V c main_arg0 : S50000x128.Idx → EReal) (ix2 (⟨(i 0).val, idx2_lt0 i⟩ : Fin 50000) k))
    (fun k : Fin 128 => (V c main_v18 : S128x128.Idx → EReal) (ix2 k (⟨(i 1).val, idx2_lt1 i⟩ : Fin 128)))
    (fun k : Fin 128 => (V c main_v17 : S50000x128.Idx → EReal) (ix2 (⟨(i 0).val, idx2_lt0 i⟩ : Fin 50000) k))
    (fun k : Fin 128 => (V c main_v19 : S128x128.Idx → EReal) (ix2 k (⟨(i 1).val, idx2_lt1 i⟩ : Fin 128)))
    ((V c main_v20 : S1x128.Idx → EReal) (ix2 (0 : Fin 1) (⟨(i 1).val, idx2_lt1 i⟩ : Fin 128)))

/-- Window 0's block at point t is rows 5000 t … 5000 t + 4999 of the node-row array. -/
theorem block0_apply (c : Dev nD) (t : Fin cfg1.N) (x : S5000x128.Idx) (i : S50000x128.Idx)
    (h0 : (i 0).val = t.val * 5000 + (x 0).val) (h1 : (i 1).val = (x 1).val) :
    (iblk1 V c 0 t : S5000x128.Idx → EReal) x = (V c main_arg0 : S50000x128.Idx → EReal) i := by
  obtain ⟨e0, e1, -⟩ := block_index t
  unfold iblk1
  rw [View.read_apply]
  show (V c main_arg0 : S50000x128.Idx → EReal) _ = V c main_arg0 i
  congr 1
  funext a
  apply Fin.ext
  match a with
  | ⟨0, _⟩ => show win1_0.index t (0 : Fin 2) * 5000 + 1 * (x 0).val = (i 0).val; rw [e0, h0]; omega
  | ⟨1, _⟩ => show win1_0.index t (1 : Fin 2) * 128 + 1 * (x 1).val = (i 1).val; rw [e1, h1]; omega

/-- Window 1's block at point t is rows 5000 t … 5000 t + 4999 of the array of gathered rows. -/
theorem block1_apply (c : Dev nD) (t : Fin cfg1.N) (x : S5000x128.Idx) (i : S50000x128.Idx)
    (h0 : (i 0).val = t.val * 5000 + (x 0).val) (h1 : (i 1).val = (x 1).val) :
    (iblk1 V c 1 t : S5000x128.Idx → EReal) x = (V c main_v17 : S50000x128.Idx → EReal) i := by
  obtain ⟨-, -, e0, e1, -⟩ := block_index t
  unfold iblk1
  rw [View.read_apply]
  show (V c main_v17 : S50000x128.Idx → EReal) _ = V c main_v17 i
  congr 1
  funext a
  apply Fin.ext
  match a with
  | ⟨0, _⟩ => show win1_1.index t (0 : Fin 2) * 5000 + 1 * (x 0).val = (i 0).val; rw [e0, h0]; omega
  | ⟨1, _⟩ => show win1_1.index t (1 : Fin 2) * 128 + 1 * (x 1).val = (i 1).val; rw [e1, h1]; omega

/-- Window 2's block at every point is the whole upper weight matrix. -/
theorem block2_apply (c : Dev nD) (t : Fin cfg1.N) (x : S128x128.Idx) :
    (iblk1 V c 2 t : S128x128.Idx → EReal) x = (V c main_v18 : S128x128.Idx → EReal) x := by
  obtain ⟨-, -, -, -, e0, e1, -⟩ := block_index t
  unfold iblk1
  rw [View.read_apply]
  show (V c main_v18 : S128x128.Idx → EReal) _ = V c main_v18 x
  congr 1
  funext a
  apply Fin.ext
  match a with
  | ⟨0, _⟩ => show win1_2.index t (0 : Fin 2) * 128 + 1 * (x 0).val = (x 0).val; rw [e0]; omega
  | ⟨1, _⟩ => show win1_2.index t (1 : Fin 2) * 128 + 1 * (x 1).val = (x 1).val; rw [e1]; omega

/-- Window 3's block at every point is the whole lower weight matrix. -/
theorem block3_apply (c : Dev nD) (t : Fin cfg1.N) (x : S128x128.Idx) :
    (iblk1 V c 3 t : S128x128.Idx → EReal) x = (V c main_v19 : S128x128.Idx → EReal) x := by
  obtain ⟨-, -, -, -, -, -, e0, e1, -⟩ := block_index t
  unfold iblk1
  rw [View.read_apply]
  show (V c main_v19 : S128x128.Idx → EReal) _ = V c main_v19 x
  congr 1
  funext a
  apply Fin.ext
  match a with
  | ⟨0, _⟩ => show win1_3.index t (0 : Fin 2) * 128 + 1 * (x 0).val = (x 0).val; rw [e0]; omega
  | ⟨1, _⟩ => show win1_3.index t (1 : Fin 2) * 128 + 1 * (x 1).val = (x 1).val; rw [e1]; omega

/-- Window 4's block at every point is the whole bias row. -/
theorem block4_apply (c : Dev nD) (t : Fin cfg1.N) (x : S1x128.Idx) :
    (iblk1 V c 4 t : S1x128.Idx → EReal) x = (V c main_v20 : S1x128.Idx → EReal) x := by
  obtain ⟨-, -, -, -, -, -, -, -, e0, e1, -⟩ := block_index t
  unfold iblk1
  rw [View.read_apply]
  show (V c main_v20 : S1x128.Idx → EReal) _ = V c main_v20 x
  congr 1
  funext a
  apply Fin.ext
  match a with
  | ⟨0, _⟩ => show win1_4.index t (0 : Fin 2) * 1 + 1 * (x 0).val = (x 0).val; rw [e0]; omega
  | ⟨1, _⟩ => show win1_4.index t (1 : Fin 2) * 128 + 1 * (x 1).val = (x 1).val; rw [e1]; omega

/-- The affine map and clamp of equal rows, weights and bias are equal. -/
theorem dense2_congr {K1 K2 : Nat} {a a' w1 w1' : Fin K1 → EReal} {b b' w2 w2' : Fin K2 → EReal} {bias bias' : EReal}
    (ha : ∀ k, a k = a' k) (hw1 : ∀ k, w1 k = w1' k) (hb : ∀ k, b k = b' k) (hw2 : ∀ k, w2 k = w2' k)
    (hbias : bias = bias') : dense2 a w1 b w2 bias = dense2 a' w1' b' w2' bias' := by
  rw [funext ha, funext hw1, funext hb, funext hw2, hbias]

/-- Entry (p, q) of what the tile body leaves at point t is entry (5000 t + p, q) of G. -/
theorem tile_entry (c : Dev nD) (t : Fin cfg1.N) (p : Fin 5000) (q : Fin 128) (i : S50000x128.Idx)
    (h0 : (i 0).val = t.val * 5000 + p.val) (h1 : (i 1).val = q.val) :
    k1_pay1 (F := Ideal) (iblk1 V c 0 t) (iblk1 V c 1 t) (iblk1 V c 2 t) (iblk1 V c 3 t) (iblk1 V c 4 t) (ix2 p q)
      = G V c i := by
  have hq : (⟨(i 1).val, idx2_lt1 i⟩ : Fin 128) = q := Fin.ext h1
  refine (Payload.pay1_apply _ _ _ _ _ p q).trans ?_
  unfold G
  rw [hq]
  exact dense2_congr (fun k => block0_apply V c t (ix2 p k) _ h0 rfl) (fun k => block2_apply V c t (ix2 k q))
    (fun k => block1_apply V c t (ix2 p k) _ h0 rfl) (fun k => block3_apply V c t (ix2 k q))
    (block4_apply V c t (ix2 (0 : Fin 1) q))

/-- What grid point t writes back is tile t of G. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero zero_offsets]
  simp only [View.ld_unit_zero (S := S5000x128) zero_offsets, View.ld_unit_zero (S := S128x128) zero_offsets,
    View.ld_unit_zero (S := S1x128) zero_offsets]
  obtain ⟨-, -, -, -, -, -, -, -, -, -, e0, e1⟩ := block_index t
  funext j
  show k1_pay1 (F := Ideal) (iblk1 V c 0 t) (iblk1 V c 1 t) (iblk1 V c 2 t) (iblk1 V c 3 t) (iblk1 V c 4 t) (j : S5000x128.Idx)
    = G V c (((cfg1.win 5).blk t).view.emb j)
  refine (congrArg _ (eq_ix2 (n0 := 5000) (n1 := 128) j)).trans (tile_entry V c t (j 0) (j 1) _ ?_ ?_)
  · show win1_5.index t (0 : Fin 2) * 5000 + 1 * (j 0).val = t.val * 5000 + (j 0).val
    rw [e0]; omega
  · show win1_5.index t (1 : Fin 2) * 128 + 1 * (j 1).val = (j 1).val
    rw [e1]; omega

/-- An index of the output array lies in tile t iff each coordinate lies in the tile's range on its axis. -/
theorem mem_tile (t : Fin cfg1.N) (i : S50000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v21).slice (win1_5.rect t)).set ↔ _
  rw [View.set_slice_whole, Rect.mem_set_unit]
  exact Iff.rfl

/-- Every index of the output array lies in a tile that is written back: row r lies in tile r / 5000. -/
theorem cover (i : S50000x128.Idx) :
    ∃ t : Fin cfg1.N, (cfg1.win 5).flush t = true ∧ i ∈ ((cfg1.win 5).blk t).view.set := by
  have hi0 : (i 0).val < 50000 := idx2_lt0 i
  have hi1 : (i 1).val < 128 := idx2_lt1 i
  obtain ⟨t, ht⟩ : ∃ t : Fin cfg1.N, t.val = (i 0).val / 5000 :=
    ⟨⟨(i 0).val / 5000, lt_of_lt_of_eq (by omega : (i 0).val / 5000 < 10) N_1.symm⟩, rfl⟩
  obtain ⟨-, -, -, -, -, -, -, -, -, -, e0, e1⟩ := block_index t
  refine ⟨t, flush1_5 t, ?_⟩
  rw [mem_tile]
  intro a
  match a with
  | ⟨0, _⟩ =>
    show win1_5.index t (0 : Fin 2) * 5000 ≤ (i 0).val ∧ (i 0).val < win1_5.index t (0 : Fin 2) * 5000 + 5000
    rw [e0, ht]; omega
  | ⟨1, _⟩ =>
    show win1_5.index t (1 : Fin 2) * 128 ≤ (i 1).val ∧ (i 1).val < win1_5.index t (1 : Fin 2) * 128 + 128
    rw [e1]; omega

/-- The output array after the last grid point is G. -/
theorem array_eq (c : Dev nD) : (dat1 (F := Ideal) V c).arrAt 5 cfg1.N = G V c :=
  (dat1 V c).arrAt_eq_of_cover 5 (G V c) (fun t _ => flushed_eq V c t) cover

/-- Entry (p, q) of the output array after the last grid point. -/
theorem array_apply (c : Dev nD) (p : Fin 50000) (q : Fin 128) :
    ((dat1 (F := Ideal) V c).arrAt 5 cfg1.N : S50000x128.Idx → EReal) (ix2 p q)
      = dense2 (fun k : Fin 128 => (V c main_arg0 : S50000x128.Idx → EReal) (ix2 p k)) (fun k => (V c main_v18 : S128x128.Idx → EReal) (ix2 k q))
          (fun k : Fin 128 => (V c main_v17 : S50000x128.Idx → EReal) (ix2 p k)) (fun k => (V c main_v19 : S128x128.Idx → EReal) (ix2 k q))
          ((V c main_v20 : S1x128.Idx → EReal) (ix2 (0 : Fin 1) q)) := by
  rw [array_eq]
  rfl

end Cert.KernelIdeal.Region1

end
-- ==== Proof.LibScatterAddAt.lean ====
/-
  The host's accumulating float scatter (`stablehlo.scatter` with an `add` body over several scatter indices) READ AT ONE
  ELEMENT of its result, at the ideal instance: the operand's element plus the sum, over ALL updates, of those whose
  index lands on the element — an if-sum over the updates' coordinate ranges, the index words read signed. An index
  word that is negative or past the operand's extent equals no element's coordinate, so its update is in no element's
  sum: the operation drops it. General in the sizes; the dimension numbers enter as equations on the record's fields,
  which a printed record meets by `rfl`.

  Three shapes of dimension numbers: updates added into a vector, one index word each (a count or a sum by segment);
  update rows added into the rows of a matrix, one index word per row (a sum of rows by segment); updates added into a
  matrix at (row, column) pairs of index words (an adjacency matrix from an edge list).
-/
import Idealize.ShloMosaic.Lib.ValueIdxRank1
import Mathlib.Algebra.BigOperators.Group.Finset.Basic
import Mathlib.Algebra.BigOperators.Group.Finset.Piecewise

noncomputable section

open scoped BigOperators

namespace Cert.LibScatterAddAt

open Idealize.ShloMosaic Idealize.ShloMosaic.ValueIdx

/-! ## Where an update lands -/

/-- An update index `j` lands on the operand element `i` iff on every operand axis the window's start (the index word
    read signed, or 0) plus the window coordinate IS `i`'s coordinate — in particular it is then inside the operand,
    and an update one of whose sums is negative or past the extent lands nowhere. -/
theorem resultIdx?_eq_some_iff {s si u : Shape} (d : ScatterDims s si u) {w : Nat} (j : u.Idx) (idx : IVec si w) (i : s.Idx) :
    d.resultIdx? j idx = some i ↔ ∀ a, d.start j idx a + (d.window j a : ℤ) = ((i a).val : ℤ) := by
  unfold ScatterDims.resultIdx?
  split
  · rename_i h
    constructor
    · intro he a
      have hf := congrFun (Option.some.inj he) a
      have hv : (d.start j idx a + (d.window j a : ℤ)).toNat = (i a).val := congrArg Fin.val hf
      have h0 := (h a).1
      omega
    · intro hall
      refine congrArg some (funext fun a => Fin.ext ?_)
      show (d.start j idx a + (d.window j a : ℤ)).toNat = (i a).val
      rw [hall a]; exact Int.toNat_natCast _
  · rename_i h
    constructor
    · intro he; exact absurd he (by simp)
    · intro hall
      exact absurd (fun a => by rw [hall a]; exact ⟨Int.natCast_nonneg _, by exact_mod_cast (i a).isLt⟩) h

/-! ## Updates added into a vector, one index word each -/

section Vec

variable {N n w : Nat}

/-- With the operand's one axis inserted and mapped from the index word (index_vector_dim = 1 over indices [n, 1], no
    window axis), update `e`'s window starts at the word `idx[e, 0]` and has no extent. -/
theorem vec_start (d : ScatterDims ⟨1, ![N]⟩ ⟨2, ![n, 1]⟩ ⟨1, ![n]⟩)
    (huw : d.updateWindowDims = []) (hiw : d.insertedWindowDims = [0]) (hsd : d.scatterDimsToOperandDims = [0])
    (hiv : d.indexVectorDim = 1) (idx : IVec ⟨2, ![n, 1]⟩ w) (e : Fin n) :
    d.start (ix1 e) idx 0 = (idx (ix2 e 0)).toInt ∧ d.window (ix1 e) 0 = 0 := by
  obtain ⟨uw, iw, sd, iv, wf⟩ := d
  dsimp only at huw hiw hsd hiv
  subst huw hiw hsd hiv
  refine ⟨?_, ?_⟩
  · unfold ScatterDims.start
    rw [dif_pos (show (0 : Fin 1) ∈ [(0 : Fin 1)] by decide)]
    refine congrArg (fun k => (idx k).toInt) (funext fun b => Fin.ext ?_)
    match b with
    | ⟨0, _⟩ => rfl
    | ⟨1, _⟩ => rfl
  · unfold ScatterDims.window; rw [dif_neg (by simp [ScatterDims.sKept, Shape.kept])]

/-- THE VECTOR SCATTER READ AT i: the operand's element plus every update whose index word is `i` (read signed; a
    negative or too large word matches no coordinate). With updates all 1 this counts the words equal to `i`. -/
theorem ideal_scatterAdd_vec_apply (d : ScatterDims ⟨1, ![N]⟩ ⟨2, ![n, 1]⟩ ⟨1, ![n]⟩)
    (huw : d.updateWindowDims = []) (hiw : d.insertedWindowDims = [0]) (hsd : d.scatterDimsToOperandDims = [0])
    (hiv : d.indexVectorDim = 1)
    (x : (⟨1, ![N]⟩ : Shape).Idx → EReal) (idx : IVec ⟨2, ![n, 1]⟩ w) (upd : (⟨1, ![n]⟩ : Shape).Idx → EReal) (i : Fin N) :
    Ideal.hostScatterAdd d x idx upd (ix1 i)
      = x (ix1 i) + ∑ e : Fin n, if (idx (ix2 e 0)).toInt = (i.val : ℤ) then upd (ix1 e) else 0 := by
  unfold Ideal.hostScatterAdd
  congr 1
  rw [Finset.sum_filter, ← Equiv.sum_comp (idxEquiv1 (n := n)).symm]
  refine Finset.sum_congr rfl fun e _ => ?_
  show (if d.resultIdx? (ix1 e) idx = some (ix1 i) then upd (ix1 e) else 0) = _
  obtain ⟨h0, w0⟩ := vec_start d huw hiw hsd hiv idx e
  have key : d.resultIdx? (ix1 e) idx = some (ix1 i) ↔ (idx (ix2 e 0)).toInt = (i.val : ℤ) := by
    rw [resultIdx?_eq_some_iff]
    constructor
    · intro h
      have a0 := h 0
      rw [h0, w0] at a0
      simp only [Nat.cast_zero, add_zero] at a0
      exact a0
    · intro e0 a
      match a with
      | ⟨0, _⟩ => show d.start (ix1 e) idx 0 + (d.window (ix1 e) 0 : ℤ) = _; rw [h0, w0, e0]; simp
  simp only [key]

/-- The same of the program's operation `Host.scatterAdd` at the ideal instance. -/
theorem host_scatterAdd_vec_apply {φ : FTy} (d : ScatterDims ⟨1, ![N]⟩ ⟨2, ![n, 1]⟩ ⟨1, ![n]⟩)
    (huw : d.updateWindowDims = []) (hiw : d.insertedWindowDims = [0]) (hsd : d.scatterDimsToOperandDims = [0])
    (hiv : d.indexVectorDim = 1)
    (x : FVec Ideal ⟨1, ![N]⟩ φ) (idx : IVec ⟨2, ![n, 1]⟩ w) (upd : FVec Ideal ⟨1, ![n]⟩ φ) (i : Fin N) :
    Host.scatterAdd (F := Ideal) d x idx upd (ix1 i)
      = x (ix1 i) + ∑ e : Fin n, if (idx (ix2 e 0)).toInt = (i.val : ℤ) then upd (ix1 e) else 0 :=
  ideal_scatterAdd_vec_apply d huw hiw hsd hiv x idx upd i

end Vec

/-! ## Update rows added into the rows of a matrix, one index word per row -/

section Rows

variable {N D n w : Nat}

/-- With the operand's row axis inserted and mapped from the index word and its column axis the updates' window axis
    (index_vector_dim = 1 over indices [n, 1]), update `(e, j')`'s window starts at row word `idx[e, 0]`, column 0, and
    `j'` is its coordinate along the row. -/
theorem rows_start (d : ScatterDims ⟨2, ![N, D]⟩ ⟨2, ![n, 1]⟩ ⟨2, ![n, D]⟩)
    (huw : d.updateWindowDims = [1]) (hiw : d.insertedWindowDims = [0]) (hsd : d.scatterDimsToOperandDims = [0])
    (hiv : d.indexVectorDim = 1) (idx : IVec ⟨2, ![n, 1]⟩ w) (e : Fin n) (j' : Fin D) :
    d.start (ix2 e j') idx 0 = (idx (ix2 e 0)).toInt ∧ d.start (ix2 e j') idx 1 = 0
      ∧ d.window (ix2 e j') 0 = 0 ∧ d.window (ix2 e j') 1 = j'.val := by
  obtain ⟨uw, iw, sd, iv, wf⟩ := d
  dsimp only at huw hiw hsd hiv
  subst huw hiw hsd hiv
  refine ⟨?_, ?_, ?_, ?_⟩
  · unfold ScatterDims.start
    rw [dif_pos (show (0 : Fin 2) ∈ [(0 : Fin 2)] by decide)]
    refine congrArg (fun k => (idx k).toInt) (funext fun b => Fin.ext ?_)
    match b with
    | ⟨0, _⟩ => rfl
    | ⟨1, _⟩ => rfl
  · unfold ScatterDims.start; rw [dif_neg (by simp)]
  · unfold ScatterDims.window; rw [dif_neg (by simp [ScatterDims.sKept, Shape.kept])]
  · unfold ScatterDims.window; rw [dif_pos (by simp [ScatterDims.sKept, Shape.kept])]; rfl

/-- THE ROW SCATTER READ AT (i, j): the operand's element plus, of every update row whose index word is `i` (read
    signed; a negative or too large word matches no row), the element in column `j`. -/
theorem ideal_scatterAdd_rows_apply (d : ScatterDims ⟨2, ![N, D]⟩ ⟨2, ![n, 1]⟩ ⟨2, ![n, D]⟩)
    (huw : d.updateWindowDims = [1]) (hiw : d.insertedWindowDims = [0]) (hsd : d.scatterDimsToOperandDims = [0])
    (hiv : d.indexVectorDim = 1)
    (x : (⟨2, ![N, D]⟩ : Shape).Idx → EReal) (idx : IVec ⟨2, ![n, 1]⟩ w) (upd : (⟨2, ![n, D]⟩ : Shape).Idx → EReal)
    (i : Fin N) (j : Fin D) :
    Ideal.hostScatterAdd d x idx upd (ix2 i j)
      = x (ix2 i j) + ∑ e : Fin n, if (idx (ix2 e 0)).toInt = (i.val : ℤ) then upd (ix2 e j) else 0 := by
  unfold Ideal.hostScatterAdd
  congr 1
  rw [Finset.sum_filter, sum_idx2]
  refine Finset.sum_congr rfl fun e _ => ?_
  have key : ∀ j' : Fin D, d.resultIdx? (ix2 e j') idx = some (ix2 i j)
      ↔ ((idx (ix2 e 0)).toInt = (i.val : ℤ) ∧ j' = j) := by
    intro j'
    obtain ⟨h0, h1, w0, w1⟩ := rows_start d huw hiw hsd hiv idx e j'
    rw [resultIdx?_eq_some_iff]
    constructor
    · intro h
      have a0 := h 0; have a1 := h 1
      rw [h0, w0] at a0; rw [h1, w1] at a1
      simp only [Nat.cast_zero, add_zero, zero_add] at a0 a1
      exact ⟨a0, Fin.ext (by exact_mod_cast a1)⟩
    · rintro ⟨e0, rfl⟩ a
      match a with
      | ⟨0, _⟩ => show d.start (ix2 e j') idx 0 + (d.window (ix2 e j') 0 : ℤ) = _; rw [h0, w0, e0]; simp
      | ⟨1, _⟩ => show d.start (ix2 e j') idx 1 + (d.window (ix2 e j') 1 : ℤ) = _; rw [h1, w1]; simp
  simp only [key]
  by_cases hA : (idx (ix2 e 0)).toInt = (i.val : ℤ)
  · simp only [hA, true_and]
    rw [Finset.sum_ite_eq']; simp
  · simp only [hA, false_and, if_false]
    exact Finset.sum_const_zero

/-- The same of the program's operation `Host.scatterAdd` at the ideal instance. -/
theorem host_scatterAdd_rows_apply {φ : FTy} (d : ScatterDims ⟨2, ![N, D]⟩ ⟨2, ![n, 1]⟩ ⟨2, ![n, D]⟩)
    (huw : d.updateWindowDims = [1]) (hiw : d.insertedWindowDims = [0]) (hsd : d.scatterDimsToOperandDims = [0])
    (hiv : d.indexVectorDim = 1)
    (x : FVec Ideal ⟨2, ![N, D]⟩ φ) (idx : IVec ⟨2, ![n, 1]⟩ w) (upd : FVec Ideal ⟨2, ![n, D]⟩ φ) (i : Fin N) (j : Fin D) :
    Host.scatterAdd (F := Ideal) d x idx upd (ix2 i j)
      = x (ix2 i j) + ∑ e : Fin n, if (idx (ix2 e 0)).toInt = (i.val : ℤ) then upd (ix2 e j) else 0 :=
  ideal_scatterAdd_rows_apply d huw hiw hsd hiv x idx upd i j

end Rows

/-! ## Updates added into a matrix at (row, column) pairs of index words -/

section Points

variable {N M n w : Nat}

/-- With both operand axes inserted and mapped from the index pair (index_vector_dim = 1 over indices [n, 2], no window
    axis), update `e`'s window starts at row word `idx[e, 0]` and column word `idx[e, 1]`, and has no extent. -/
theorem points_start (d : ScatterDims ⟨2, ![N, M]⟩ ⟨2, ![n, 2]⟩ ⟨1, ![n]⟩)
    (huw : d.updateWindowDims = []) (hiw : d.insertedWindowDims = [0, 1]) (hsd : d.scatterDimsToOperandDims = [0, 1])
    (hiv : d.indexVectorDim = 1) (idx : IVec ⟨2, ![n, 2]⟩ w) (e : Fin n) :
    d.start (ix1 e) idx 0 = (idx (ix2 e 0)).toInt ∧ d.start (ix1 e) idx 1 = (idx (ix2 e 1)).toInt
      ∧ d.window (ix1 e) 0 = 0 ∧ d.window (ix1 e) 1 = 0 := by
  obtain ⟨uw, iw, sd, iv, wf⟩ := d
  dsimp only at huw hiw hsd hiv
  subst huw hiw hsd hiv
  refine ⟨?_, ?_, ?_, ?_⟩
  · unfold ScatterDims.start
    rw [dif_pos (show (0 : Fin 2) ∈ [(0 : Fin 2), 1] by decide)]
    refine congrArg (fun k => (idx k).toInt) (funext fun b => Fin.ext ?_)
    match b with
    | ⟨0, _⟩ => rfl
    | ⟨1, _⟩ => rfl
  · unfold ScatterDims.start
    rw [dif_pos (show (1 : Fin 2) ∈ [(0 : Fin 2), 1] by decide)]
    refine congrArg (fun k => (idx k).toInt) (funext fun b => Fin.ext ?_)
    match b with
    | ⟨0, _⟩ => rfl
    | ⟨1, _⟩ => rfl
  · unfold ScatterDims.window; rw [dif_neg (by simp [ScatterDims.sKept, Shape.kept])]
  · unfold ScatterDims.window; rw [dif_neg (by simp [ScatterDims.sKept, Shape.kept])]

/-- THE POINT SCATTER READ AT (i, c): the operand's element plus every update whose row word is `i` and whose column
    word is `c` (read signed; a negative or too large word matches no coordinate). -/
theorem ideal_scatterAdd_points_apply (d : ScatterDims ⟨2, ![N, M]⟩ ⟨2, ![n, 2]⟩ ⟨1, ![n]⟩)
    (huw : d.updateWindowDims = []) (hiw : d.insertedWindowDims = [0, 1]) (hsd : d.scatterDimsToOperandDims = [0, 1])
    (hiv : d.indexVectorDim = 1)
    (x : (⟨2, ![N, M]⟩ : Shape).Idx → EReal) (idx : IVec ⟨2, ![n, 2]⟩ w) (upd : (⟨1, ![n]⟩ : Shape).Idx → EReal)
    (i : Fin N) (c : Fin M) :
    Ideal.hostScatterAdd d x idx upd (ix2 i c)
      = x (ix2 i c) + ∑ e : Fin n,
          if (idx (ix2 e 0)).toInt = (i.val : ℤ) ∧ (idx (ix2 e 1)).toInt = (c.val : ℤ) then upd (ix1 e) else 0 := by
  unfold Ideal.hostScatterAdd
  congr 1
  rw [Finset.sum_filter, ← Equiv.sum_comp (idxEquiv1 (n := n)).symm]
  refine Finset.sum_congr rfl fun e _ => ?_
  show (if d.resultIdx? (ix1 e) idx = some (ix2 i c) then upd (ix1 e) else 0) = _
  obtain ⟨h0, h1, w0, w1⟩ := points_start d huw hiw hsd hiv idx e
  have key : d.resultIdx? (ix1 e) idx = some (ix2 i c)
      ↔ (idx (ix2 e 0)).toInt = (i.val : ℤ) ∧ (idx (ix2 e 1)).toInt = (c.val : ℤ) := by
    rw [resultIdx?_eq_some_iff]
    constructor
    · intro h
      have a0 := h 0; have a1 := h 1
      rw [h0, w0] at a0; rw [h1, w1] at a1
      simp only [Nat.cast_zero, add_zero] at a0 a1
      exact ⟨a0, a1⟩
    · rintro ⟨e0, e1⟩ a
      match a with
      | ⟨0, _⟩ => show d.start (ix1 e) idx 0 + (d.window (ix1 e) 0 : ℤ) = _; rw [h0, w0, e0]; simp
      | ⟨1, _⟩ => show d.start (ix1 e) idx 1 + (d.window (ix1 e) 1 : ℤ) = _; rw [h1, w1, e1]; simp
  simp only [key]

/-- The same of the program's operation `Host.scatterAdd` at the ideal instance. -/
theorem host_scatterAdd_points_apply {φ : FTy} (d : ScatterDims ⟨2, ![N, M]⟩ ⟨2, ![n, 2]⟩ ⟨1, ![n]⟩)
    (huw : d.updateWindowDims = []) (hiw : d.insertedWindowDims = [0, 1]) (hsd : d.scatterDimsToOperandDims = [0, 1])
    (hiv : d.indexVectorDim = 1)
    (x : FVec Ideal ⟨2, ![N, M]⟩ φ) (idx : IVec ⟨2, ![n, 2]⟩ w) (upd : FVec Ideal ⟨1, ![n]⟩ φ) (i : Fin N) (c : Fin M) :
    Host.scatterAdd (F := Ideal) d x idx upd (ix2 i c)
      = x (ix2 i c) + ∑ e : Fin n,
          if (idx (ix2 e 0)).toInt = (i.val : ℤ) ∧ (idx (ix2 e 1)).toInt = (c.val : ℤ) then upd (ix1 e) else 0 :=
  ideal_scatterAdd_points_apply d huw hiw hsd hiv x idx upd i c

end Points

end Cert.LibScatterAddAt

end
-- ==== Proof.KernelValue.lean ====
/-
  The tiled program's result is the layer function of its inputs.

  Its second tiled map leaves, at node n and channel j, the clamped affine map of the node's row and of what the node
  gathered.  What it gathered is the sum, over the 503808 padded edges, of the message rows whose padded destination
  word is n: the 3808 padding edges carry the word 50000, which is no node, so only the 500000 real edges count; a
  real edge's message row is the first tiled map's, which reads the node row its source word names (the filling take
  answers the plain take because every source word names a node, and so does the padding word 0), its own edge row,
  and the two halves of the first weight matrix.
-/
import proofs.«427579_j16630113370839_2_alg».proof.Proof.KernelRun
import proofs.«427579_j16630113370839_2_alg».proof.Proof.HostValues
import proofs.«427579_j16630113370839_2_alg».proof.Proof.Reads
import proofs.«427579_j16630113370839_2_alg».proof.Proof.Region0
import proofs.«427579_j16630113370839_2_alg».proof.Proof.Region1
import proofs.«427579_j16630113370839_2_alg».proof.Proof.LibScatterAddAt
import proofs.«427579_j16630113370839_2_alg».proof.Proof.Layer

noncomputable section

open scoped BigOperators

namespace Cert.KernelIdeal.KernelValue

open Cert.KernelIdeal Cert.KernelIdeal.Gen Cert.KernelIdeal.Host Idealize.ShloMosaic Idealize.ShloMosaic.TcCoe
open Idealize.ShloMosaic.ValueIdx Idealize.SL.Sem Cert.Layer

/-- A sum over the 503808 padded edges is the sum over the 500000 real edges plus the sum over the 3808 padding edges. -/
theorem sum_pad {M : Type} [AddCommMonoid M] (f : Fin 503808 → M) :
    ∑ e, f e = (∑ e : Fin 500000, f ⟨e.val, by omega⟩) + ∑ e : Fin 3808, f ⟨500000 + e.val, by omega⟩ := by
  rw [← (finCongr (show 500000 + 3808 = 503808 by norm_num)).sum_comp f, Fin.sum_univ_add]
  rfl

/-- A padded edge is a real edge or a padding edge. -/
theorem pad_cases (e' : Fin 503808) :
    (∃ e : Fin 500000, e' = ⟨e.val, by omega⟩) ∨ (∃ e : Fin 3808, e' = ⟨500000 + e.val, by omega⟩) := by
  by_cases h : e'.val < 500000
  · exact Or.inl ⟨⟨e'.val, h⟩, rfl⟩
  · exact Or.inr ⟨⟨e'.val - 500000, by have := e'.isLt; omega⟩, Fin.ext (by show e'.val = 500000 + (e'.val - 500000); omega)⟩

/-- Two clamped affine maps with equal rows, weights and biases are equal. -/
theorem dense2_congr {K1 K2 : Nat} {a a' w1 w1' : Fin K1 → EReal} {b b' w2 w2' : Fin K2 → EReal} {s s' : EReal}
    (ha : ∀ k, a k = a' k) (hw1 : ∀ k, w1 k = w1' k) (hb : ∀ k, b k = b' k) (hw2 : ∀ k, w2 k = w2' k) (hs : s = s') :
    dense2 a w1 b w2 s = dense2 a' w1' b' w2' s' := by
  rw [funext ha, funext hw1, funext hb, funext hw2, hs]

variable (m : (ℓ : Loc nD τ sig) → Buf (Elt Ideal) ℓ) (ρ : Dev nD → PrngReg)

/-- The input arrays, each at its literal type. -/
abbrev aH (c : Dev nD) : S50000x128.Idx → EReal := m ((c : Thread nD τ).loc main_arg0)
abbrev aXe (c : Dev nD) : S500000x32.Idx → EReal := m ((c : Thread nD τ).loc main_arg1)
abbrev aId (c : Dev nD) : IVec S2x500000 32 := m ((c : Thread nD τ).loc main_arg2)
abbrev aWM (c : Dev nD) : S160x128.Idx → EReal := m ((c : Thread nD τ).loc main_arg3)
abbrev abM (c : Dev nD) : S128.Idx → EReal := m ((c : Thread nD τ).loc main_arg4)
abbrev aWU (c : Dev nD) : S256x128.Idx → EReal := m ((c : Thread nD τ).loc main_arg5)
abbrev abU (c : Dev nD) : S128.Idx → EReal := m ((c : Thread nD τ).loc main_arg6)
/-- The message rows the first tiled map leaves. -/
abbrev msgArr (c : Dev nD) : S503808x128.Idx → EReal := (dat0 (F := Ideal) (V3 m ρ) c).arrAt 5 cfg0.N
/-- What the nodes gathered, as the second tiled map finds it. -/
abbrev zArr (c : Dev nD) : S50000x128.Idx → EReal := V5 (F := Ideal) m ρ c main_v17

/-- Every padded source word names a node: a real edge's by hypothesis, a padding edge's is 0. -/
theorem srcPad_inRange (idX : IVec S2x500000 32) (hI : SrcInRange idX) (e' : Fin 503808) :
    0 ≤ (srcPad idX (ix1 e')).toInt ∧ (srcPad idX (ix1 e')).toInt < 50000 := by
  rcases pad_cases e' with ⟨e, rfl⟩ | ⟨e, rfl⟩
  · rw [Reads.srcPad_left, Reads.srcVec_eq]; exact hI e
  · rw [Reads.srcPad_right]; decide

/-- The first tiled map's row of a real edge is the edge's message row. -/
theorem message_row (c : Dev nD) (hI : SrcInRange (aId m c)) (e : Fin 500000) (k : Fin 128) :
    msgArr m ρ c (ix2 (⟨e.val, by omega⟩ : Fin 503808) k)
      = message (aH m c) (aXe m c) (Cert.Layer.srcVec (aId m c)) (aWM m c) (abM m c) e k := by
  refine (Region0.array_apply (V3 m ρ) c ⟨e.val, by omega⟩ k).trans ?_
  unfold message
  refine dense2_congr (fun kk => ?_) (fun kk => ?_) (fun kk => ?_) (fun kk => ?_) ?_
  · -- the filling take answers the plain take, at the source word of e
    refine (congrFun (HostValues.V3_feats m ρ c) _).trans ?_
    refine (Reads.feats_apply (aH m c) (srcPad (aId m c)) (srcPad_inRange _ hI) ⟨e.val, by omega⟩ kk).trans ?_
    refine congrArg (fun r : Fin 50000 => aH m c (ix2 r kk)) (Fin.ext ?_)
    show min (srcPad (aId m c) (ix1 (⟨e.val, by omega⟩ : Fin 503808))).toInt.toNat (50000 - 1)
      = min (Cert.Layer.srcVec (aId m c) (ix1 e)).toInt.toNat (50000 - 1)
    rw [Reads.srcPad_left, Reads.srcVec_eq]
  · exact (congrFun (HostValues.V3_wm1 m ρ c) _).trans (Reads.wm1_apply (aWM m c) kk k)
  · exact (congrFun (HostValues.V3_xe m ρ c) _).trans (Reads.xePad_left (aXe m c) e kk)
  · exact (congrFun (HostValues.V3_wm2 m ρ c) _).trans (Reads.wm2_apply (aWM m c) kk k)
  · exact (congrFun (HostValues.V3_bm m ρ c) _).trans (Reads.bias2_apply (abM m c) k)

/-- What node n gathers on channel k in the tiled program is what it gathers in the layer function. -/
theorem gathered_entry (c : Dev nD) (hI : SrcInRange (aId m c)) (n : Fin 50000) (k : Fin 128) :
    zArr m ρ c (ix2 n k)
      = gathered (aH m c) (aXe m c) (Cert.Layer.srcVec (aId m c)) (Cert.Layer.dstVec (aId m c)) (aWM m c) (abM m c) n k := by
  refine (congrFun (HostValues.V5_z m ρ c) _).trans ?_
  unfold scat gathered
  refine (Cert.LibScatterAddAt.host_scatterAdd_rows_apply _ rfl rfl rfl rfl _ _ (msgArr m ρ c) n k).trans ?_
  refine congrArg₂ (· + ·) rfl ?_
  rw [sum_pad]
  have hpad : (∑ e : Fin 3808,
      if (broadcastInDim S503808x1 ![0] Facts₀.bcast_S503808_S503808x1_0 (dstPad (aId m c))
            (ix2 (⟨500000 + e.val, by omega⟩ : Fin 503808) (0 : Fin 1))).toInt = (n.val : ℤ)
        then msgArr m ρ c (ix2 (⟨500000 + e.val, by omega⟩ : Fin 503808) k) else 0) = 0 := by
    refine Finset.sum_eq_zero fun e _ => ?_
    rw [Reads.dstCol_apply, Reads.dstPad_right, if_neg]
    have h5 : (50000#32 : BitVec 32).toInt = 50000 := by decide
    rw [h5]
    have := n.isLt
    omega
  rw [hpad, add_zero]
  refine Finset.sum_congr rfl fun e _ => ?_
  rw [Reads.dstCol_apply, Reads.dstPad_left, Reads.dstVec_eq, message_row m ρ c hI e k]

/-- THE RESULT ARRAY of the tiled program, when every source word names a node. -/
theorem result_eq (c : Dev nD) (hI : SrcInRange (aId m c)) :
    (W6 (F := Ideal) m ρ c (Proc.devRef .tc main_v21) : S50000x128.Idx → EReal)
      = layer (aH m c) (aXe m c) (Cert.Layer.srcVec (aId m c)) (Cert.Layer.dstVec (aId m c)) (aWM m c) (abM m c) (aWU m c) (abU m c) := by
  funext i
  obtain ⟨n, j, rfl⟩ : ∃ (n : Fin 50000) (j : Fin 128), i = ix2 n j := ⟨i 0, i 1, eq_ix2 i⟩
  refine (congrFun (W6_arr m ρ c 5) (ix2 n j)).trans ?_
  refine (Region1.array_apply (V5 m ρ) c n j).trans ?_
  show _ = update (aH m c) (aXe m c) (Cert.Layer.srcVec (aId m c)) (Cert.Layer.dstVec (aId m c)) (aWM m c) (abM m c) (aWU m c) (abU m c) n j
  unfold update
  refine dense2_congr (fun kk => ?_) (fun kk => ?_) (fun kk => ?_) (fun kk => ?_) ?_
  · exact congrFun (HostValues.V5_h m ρ c) _
  · exact (congrFun (HostValues.V5_wu1 m ρ c) _).trans (Reads.wu1_apply (aWU m c) kk j)
  · exact gathered_entry m ρ c hI n kk
  · exact (congrFun (HostValues.V5_wu2 m ρ c) _).trans (Reads.wu2_apply (aWU m c) kk j)
  · exact (congrFun (HostValues.V5_bu m ρ c) _).trans (Reads.bias2_apply (abU m c) j)

end Cert.KernelIdeal.KernelValue

end
-- ==== Proof.RefValue.lean ====
/-
  The plain program's result is the layer function of its inputs.

  Read one operation at a time, the plain program takes the node rows of the source words, joins them with the edge rows,
  applies the first weight matrix, adds the bias and clamps at zero; adds the message rows into zeros at the destination
  words; joins the node rows with what they gathered, applies the second weight matrix, adds the bias and clamps.  A
  weight matrix applied to a joined row is the sum of its upper rows applied to the first part and its lower rows
  applied to the second.
-/
import proofs.«427579_j16630113370839_2_alg».proof.Proof.Gen.ReferenceIdeal.Read
import proofs.«427579_j16630113370839_2_alg».proof.Proof.Layer
import proofs.«427579_j16630113370839_2_alg».proof.Proof.LibTakeFill
import proofs.«427579_j16630113370839_2_alg».proof.Proof.LibRowTake
import proofs.«427579_j16630113370839_2_alg».proof.Proof.LibScatterAddAt

noncomputable section

open scoped BigOperators

namespace Cert.ReferenceIdeal.RefValue

open Cert.ReferenceIdeal Cert.ReferenceIdeal.Gen Idealize.ShloMosaic Idealize.ShloMosaic.ValueIdx Cert.Layer

variable (x0 : (⟨S50000x128, .f32⟩ : BufTy).Contents (Elt Ideal)) (x1 : (⟨S500000x32, .f32⟩ : BufTy).Contents (Elt Ideal))
  (x2 : (⟨S2x500000, .i32⟩ : BufTy).Contents (Elt Ideal)) (x3 : (⟨S160x128, .f32⟩ : BufTy).Contents (Elt Ideal))
  (x4 : (⟨S128, .f32⟩ : BufTy).Contents (Elt Ideal)) (x5 : (⟨S256x128, .f32⟩ : BufTy).Contents (Elt Ideal))
  (x6 : (⟨S128, .f32⟩ : BufTy).Contents (Elt Ideal))

/-- The source words, as the plain program slices them out, are the layer's source words. -/
theorem v1_eq : Read.val_main_v1 (F := Ideal) x2 = Cert.Layer.srcVec x2 := rfl
/-- The destination words, as the plain program slices them out, are the layer's destination words. -/
theorem v3_eq : Read.val_main_v3 (F := Ideal) x2 = Cert.Layer.dstVec x2 := rfl

/-- The row numbers the take uses are the source words after the shift of the negative ones. -/
theorem v8_eq : Read.val_main_v8 (F := Ideal) x2
    = Cert.LibTakeFill.shifted bcast_S_S500000 (Read.val_main_v1 (F := Ideal) x2) := rfl

/-- When every source word names a node, the column of row numbers holds the source words themselves. -/
theorem v9_at (hI : SrcInRange x2) (e : Fin 500000) :
    Read.val_main_v9 (F := Ideal) x2 (ix2 e (0 : Fin 1)) = Cert.Layer.srcVec x2 (ix1 e) := by
  rw [Read.val_main_v9_apply, v8_eq, v1_eq]
  exact Cert.LibTakeFill.shifted_idx bcast_S_S500000 (Cert.Layer.srcVec x2) hI _

/-- The row take reads the node row of the edge's source word. -/
theorem v10_at (hI : SrcInRange x2) (e : Fin 500000) (k : Fin 128) :
    Read.val_main_v10 (F := Ideal) x0 x2 (ix2 e k) = x0 (ix2 (srcRow (Cert.Layer.srcVec x2) e) k) := by
  unfold Read.val_main_v10
  show Host.gather (Cert.LibRowTake.rowTakeDims 50000 128 500000 gather_S50000x128_S500000x1_S500000x128_1_0_n_n_0_1_1128_wf)
    x0 (Read.val_main_v9 (F := Ideal) x2) (ix2 e k) = _
  rw [Cert.LibRowTake.gather_rowTake_apply (by decide)]
  exact congrArg (fun r => x0 (ix2 r k)) (Fin.ext (congrArg (fun w : BitVec 32 => min w.toInt.toNat (50000 - 1)) (v9_at x2 hI e)))

/-- A sum over 160 rows is the sum over the upper 128 plus the sum over the lower 32. -/
theorem sum_split_M (f : Fin 160 → EReal) :
    ∑ k, f k = (∑ k : Fin 128, f (loM k)) + ∑ k : Fin 32, f (hiM k) :=
  Fin.sum_univ_add (a := 128) (b := 32) f

/-- A sum over 256 rows is the sum over the upper 128 plus the sum over the lower 128. -/
theorem sum_split_U (f : Fin 256 → EReal) :
    ∑ k, f k = (∑ k : Fin 128, f (loU k)) + ∑ k : Fin 128, f (hiU k) :=
  Fin.sum_univ_add (a := 128) (b := 128) f

/-- The joined edge row reads the taken node row on its first 128 columns. -/
theorem v11_left (e : Fin 500000) (k : Fin 128) :
    Read.val_main_v11 (F := Ideal) x0 x1 x2 (ix2 e (loM k)) = Read.val_main_v10 (F := Ideal) x0 x2 (ix2 e k) := by
  unfold Read.val_main_v11
  generalize Read.val_main_v10 (F := Ideal) x0 x2 = y
  exact concatenate_pair_apply_left (t := S500000x160) (s₁ := S500000x128) (s₂ := S500000x32) (1 : Fin 2) y x1
    concatenates_S500000x128_S500000x32_S500000x160_d1 (ix2 e (loM k)) rfl (ix2 e k)
    (fun b => match b with | ⟨0, _⟩ => rfl | ⟨1, _⟩ => rfl)

/-- The joined edge row reads the edge's own row on its last 32 columns. -/
theorem v11_right (e : Fin 500000) (k : Fin 32) :
    Read.val_main_v11 (F := Ideal) x0 x1 x2 (ix2 e (hiM k)) = x1 (ix2 e k) := by
  unfold Read.val_main_v11
  generalize Read.val_main_v10 (F := Ideal) x0 x2 = y
  exact concatenate_pair_apply_right (t := S500000x160) (s₁ := S500000x128) (s₂ := S500000x32) (1 : Fin 2) y x1
    concatenates_S500000x128_S500000x32_S500000x160_d1 (ix2 e (hiM k)) rfl rfl (ix2 e k)
    (fun b hb => match b, hb with | ⟨0, _⟩, _ => rfl | ⟨1, _⟩, hb => absurd rfl hb)
    (by show k.val + 128 = 128 + k.val; omega)

/-- The left operand of the first matrix product is read at (edge, row). -/
theorem lidx12 (e : Fin 500000) (j : Fin 128) (q : Fin 160) :
    Read.lidx_main_v12 (ix2 e j) q = ix2 e q :=
  funext fun a => Fin.ext (by match a with | ⟨0, _⟩ => rfl | ⟨1, _⟩ => rfl)
/-- The first weight matrix is read at (row, channel). -/
theorem ridx12 (e : Fin 500000) (j : Fin 128) (q : Fin 160) :
    Read.ridx_main_v12 (ix2 e j) q = ix2 q j :=
  funext fun a => Fin.ext (by match a with | ⟨0, _⟩ => rfl | ⟨1, _⟩ => rfl)

/-- The first weight matrix applied to the joined edge row: its upper rows on the taken node row plus its lower
    rows on the edge's own row. -/
theorem v12_at (hI : SrcInRange x2) (e : Fin 500000) (j : Fin 128) :
    Read.val_main_v12 (F := Ideal) x0 x1 x2 x3 (ix2 e j)
      = (∑ k : Fin 128, x0 (ix2 (srcRow (Cert.Layer.srcVec x2) e) k) * x3 (ix2 (loM k) j))
        + ∑ k : Fin 32, x1 (ix2 e k) * x3 (ix2 (hiM k) j) := by
  rw [Read.val_main_v12_apply, sum_split_M]
  refine congrArg₂ (· + ·) (Finset.sum_congr rfl fun k _ => ?_) (Finset.sum_congr rfl fun k _ => ?_)
  · rw [lidx12, ridx12, v11_left, v10_at x0 x2 hI]
  · rw [lidx12, ridx12, v11_right]

/-- The message rows: the plain program's clamped affine map of the joined edge row is the layer's message. -/
theorem v16_at (hI : SrcInRange x2) (e : Fin 500000) (j : Fin 128) :
    Read.val_main_v16 (F := Ideal) x0 x1 x2 x3 x4 (ix2 e j)
      = message x0 x1 (Cert.Layer.srcVec x2) x3 x4 e j := by
  rw [Read.val_main_v16_apply, Read.val_main_v15_apply, Read.val_main_call0_v0_apply, Read.val_main_call0_cst_apply,
    Read.val_main_v14_apply, Read.val_main_v13_apply, v12_at x0 x1 x2 x3 hI]
  have eb : Read.idx_main_v13 (Read.idx_main_v14 (ix2 e j)) = ix1 j :=
    funext fun a => Fin.ext (by match a with | ⟨0, _⟩ => rfl)
  rw [eb]
  rfl

/-- What the rows of zeros gather: the messages of the edges whose destination word is the row. -/
theorem v19_at (hI : SrcInRange x2) (n : Fin 50000) (k : Fin 128) :
    Read.val_main_v19 (F := Ideal) x0 x1 x2 x3 x4 (ix2 n k)
      = gathered x0 x1 (Cert.Layer.srcVec x2) (Cert.Layer.dstVec x2) x3 x4 n k := by
  unfold Read.val_main_v19
  rw [Cert.LibScatterAddAt.host_scatterAdd_rows_apply _ rfl rfl rfl rfl]
  unfold gathered
  refine congrArg₂ (· + ·) ?_ (Finset.sum_congr rfl fun e _ => ?_)
  · rw [Read.val_main_v17_apply, Read.val_main_cst_apply]
    rfl
  · have eb : Read.idx_main_v18 (ix2 e (0 : Fin 1)) = ix1 e :=
      funext fun a => Fin.ext (by match a with | ⟨0, _⟩ => rfl)
    rw [Read.val_main_v18_apply, eb, v3_eq, v16_at x0 x1 x2 x3 x4 hI]

/-- The left operand of the second matrix product is read at (node, row). -/
theorem lidx21 (n : Fin 50000) (j : Fin 128) (q : Fin 256) :
    Read.lidx_main_v21 (ix2 n j) q = ix2 n q :=
  funext fun a => Fin.ext (by match a with | ⟨0, _⟩ => rfl | ⟨1, _⟩ => rfl)
/-- The second weight matrix is read at (row, channel). -/
theorem ridx21 (n : Fin 50000) (j : Fin 128) (q : Fin 256) :
    Read.ridx_main_v21 (ix2 n j) q = ix2 q j :=
  funext fun a => Fin.ext (by match a with | ⟨0, _⟩ => rfl | ⟨1, _⟩ => rfl)

/-- The joined node row reads the node's own row on its first 128 columns. -/
theorem v20_left (n : Fin 50000) (k : Fin 128) :
    Read.val_main_v20 (F := Ideal) x0 x1 x2 x3 x4 (ix2 n (loU k)) = x0 (ix2 n k) := by
  unfold Read.val_main_v20
  generalize Read.val_main_v19 (F := Ideal) x0 x1 x2 x3 x4 = y
  exact concatenate_pair_apply_left (t := S50000x256) (s₁ := S50000x128) (s₂ := S50000x128) (1 : Fin 2) x0 y
    concatenates_S50000x128_S50000x128_S50000x256_d1 (ix2 n (loU k)) rfl (ix2 n k)
    (fun b => match b with | ⟨0, _⟩ => rfl | ⟨1, _⟩ => rfl)

/-- The joined node row reads what the node gathered on its last 128 columns. -/
theorem v20_right (n : Fin 50000) (k : Fin 128) :
    Read.val_main_v20 (F := Ideal) x0 x1 x2 x3 x4 (ix2 n (hiU k))
      = Read.val_main_v19 (F := Ideal) x0 x1 x2 x3 x4 (ix2 n k) := by
  unfold Read.val_main_v20
  generalize Read.val_main_v19 (F := Ideal) x0 x1 x2 x3 x4 = y
  exact concatenate_pair_apply_right (t := S50000x256) (s₁ := S50000x128) (s₂ := S50000x128) (1 : Fin 2) x0 y
    concatenates_S50000x128_S50000x128_S50000x256_d1 (ix2 n (hiU k)) rfl rfl (ix2 n k)
    (fun b hb => match b, hb with | ⟨0, _⟩, _ => rfl | ⟨1, _⟩, hb => absurd rfl hb)
    (by show k.val + 128 = 128 + k.val; omega)

/-- The second weight matrix applied to the joined node row: its upper rows on the node's own row plus its lower
    rows on what the node gathered. -/
theorem v21_at (hI : SrcInRange x2) (n : Fin 50000) (j : Fin 128) :
    Read.val_main_v21 (F := Ideal) x0 x1 x2 x3 x4 x5 (ix2 n j)
      = (∑ k : Fin 128, x0 (ix2 n k) * x5 (ix2 (loU k) j))
        + ∑ k : Fin 128, gathered x0 x1 (Cert.Layer.srcVec x2) (Cert.Layer.dstVec x2) x3 x4 n k * x5 (ix2 (hiU k) j) := by
  rw [Read.val_main_v21_apply, sum_split_U]
  refine congrArg₂ (· + ·) (Finset.sum_congr rfl fun k _ => ?_) (Finset.sum_congr rfl fun k _ => ?_)
  · rw [lidx21, ridx21, v20_left]
  · rw [lidx21, ridx21, v20_right, v19_at x0 x1 x2 x3 x4 hI]

/-- The plain program's result at node n, channel j, when every source word names a node. -/
theorem ref_apply (hI : SrcInRange x2) (n : Fin 50000) (j : Fin 128) :
    Read.val_main_v25 (F := Ideal) x0 x1 x2 x3 x4 x5 x6 (ix2 n j)
      = update x0 x1 (Cert.Layer.srcVec x2) (Cert.Layer.dstVec x2) x3 x4 x5 x6 n j := by
  rw [Read.val_main_v25_apply, Read.val_main_v24_apply, Read.val_main_call1_v0_apply, Read.val_main_call1_cst_apply,
    Read.val_main_v23_apply, Read.val_main_v22_apply, v21_at x0 x1 x2 x3 x4 x5 hI]
  have eb : Read.idx_main_v22 (Read.idx_main_v23 (ix2 n j)) = ix1 j :=
    funext fun a => Fin.ext (by match a with | ⟨0, _⟩ => rfl)
  rw [eb]
  rfl

/-- The plain program's result array is the layer function of its inputs. -/
theorem ref_eq (hI : SrcInRange x2) :
    Read.val_main_v25 (F := Ideal) x0 x1 x2 x3 x4 x5 x6
      = layer x0 x1 (Cert.Layer.srcVec x2) (Cert.Layer.dstVec x2) x3 x4 x5 x6 := by
  funext i
  obtain ⟨n, j, rfl⟩ : ∃ (n : Fin 50000) (j : Fin 128), i = ix2 n j := ⟨i 0, i 1, eq_ix2 i⟩
  exact ref_apply x0 x1 x2 x3 x4 x5 x6 hI n j

end Cert.ReferenceIdeal.RefValue

end
-- ==== Proof.PreDecode.lean ====
/-
  What the precondition says about the source words.

  The precondition is a conjunction; its last conjunct is the conjunction, over all 500000 edges, of "the source word,
  read signed, is at least 0" and "it is below 50000".  Read back at one edge it puts the word in [0, 50000).
-/
import proofs.«427579_j16630113370839_2_alg».proof.Defs
import proofs.«427579_j16630113370839_2_alg».proof.Proof.Gen.Pre_finite_inputs
import proofs.«427579_j16630113370839_2_alg».proof.Proof.Layer
import Idealize.ShloMosaic.Lib.ReduceAll
import Idealize.ShloMosaic.Lib.Affine

noncomputable section

namespace Cert.PreDecode

open Idealize.ShloMosaic Idealize.ShloMosaic.ValueIdx

instance : Subsingleton (Cert.Pre_finite_inputs.S_).Idx := ⟨fun a b => funext fun d => d.elim0⟩

/-- If the precondition's function answers the bit 1, every source word names a node. -/
theorem srcInRange_of_fn {F : FTy → Type} [FloatOps F]
    (a0 : FVec F Cert.Pre_finite_inputs.S50000x128 .f32) (a1 : FVec F Cert.Pre_finite_inputs.S500000x32 .f32)
    (a2 : IVec Cert.Pre_finite_inputs.S2x500000 32) (a3 : FVec F Cert.Pre_finite_inputs.S160x128 .f32)
    (a4 : FVec F Cert.Pre_finite_inputs.S128 .f32) (a5 : FVec F Cert.Pre_finite_inputs.S256x128 .f32)
    (a6 : FVec F Cert.Pre_finite_inputs.S128 .f32)
    (h : Cert.Pre_finite_inputs.fn (F := F) a0 a1 a2 a3 a4 a5 a6 = fun _ => 1#1) : Cert.Layer.SrcInRange a2 := by
  have h0 := congrFun h ix0
  dsimp only [Cert.Pre_finite_inputs.fn, Cert.Pre_finite_inputs.fn_part1, Cert.Pre_finite_inputs.fn_part2] at h0
  have h1 := (IntOp.andi_eq_one.mp h0).2
  intro e
  have h2 := Host.reduce_andi_all _ _ _ _ _ h1 (ix1 e)
  have h3 := IntOp.andi_eq_one.mp h2
  have h00 : (0#32 : BitVec 32).toInt = 0 := by decide
  have h50 : (50000#32 : BitVec 32).toInt = 50000 := by decide
  have hge := IntOp.cmpi_sge.mp h3.1
  have hlt := IntOp.cmpi_slt.mp h3.2
  -- a broadcast constant reads its word at every edge; the sliced and recast row of edge ends is the source vector
  have hge' : (0#32 : BitVec 32).toInt ≤ (Cert.Layer.srcVec a2 (ix1 e)).toInt := hge
  have hlt' : (Cert.Layer.srcVec a2 (ix1 e)).toInt < (50000#32 : BitVec 32).toInt := hlt
  rw [h00] at hge'
  rw [h50] at hlt'
  exact ⟨hge', hlt'⟩

end Cert.PreDecode

end
-- ==== Proof.lean ====
/-
  One layer of message passing on a graph, computed two ways, gives the same array on the extended reals.

  The graph has 50000 nodes and 500000 edges; an edge carries a source word, a destination word and a row of 32
  numbers, a node a row of 128.  The layer (Proof/Layer.lean) sends each edge the clamped affine map of its source
  node's row joined with its own row, adds the messages up at their destination nodes, and sends each node the clamped
  affine map of its own row joined with what it gathered.

  The plain program does exactly this, one array operation after the other (Proof/RefValue.lean).  The tiled program pads
  the edges to 503808, takes the source rows with a filling take, computes the messages tile by tile with the weight
  matrix cut in two, adds them up with the padding edges sent to a node that does not exist, and computes the update
  tile by tile with the second weight matrix cut in two (Proof/KernelValue.lean).  The two agree where every source word
  names a node, which the precondition says (Proof/PreDecode.lean): there the filling take is the plain take, and a
  matrix applied to a joined row is the sum of its two halves applied to the two parts.  Sums on the extended reals
  regroup freely, so the inputs' finiteness is never used.
-/
import proofs.«427579_j16630113370839_2_alg».proof.Defs
import proofs.«427579_j16630113370839_2_alg».proof.Proof.Gen.Kernel
import proofs.«427579_j16630113370839_2_alg».proof.Proof.Gen.Kernel.Frame
import proofs.«427579_j16630113370839_2_alg».proof.Proof.Gen.KernelIdeal
import proofs.«427579_j16630113370839_2_alg».proof.Proof.Gen.KernelIdeal.Frame
import proofs.«427579_j16630113370839_2_alg».proof.Proof.Gen.ReferenceIdeal
import proofs.«427579_j16630113370839_2_alg».proof.Proof.Gen.Pre_finite_inputs
import proofs.«427579_j16630113370839_2_alg».proof.Proof.Gen.ReferenceIdeal.Run
import proofs.«427579_j16630113370839_2_alg».proof.Proof.Gen.ReferenceIdeal.Read
import proofs.«427579_j16630113370839_2_alg».proof.Proof.KernelValue
import proofs.«427579_j16630113370839_2_alg».proof.Proof.RefValue
import proofs.«427579_j16630113370839_2_alg».proof.Proof.PreDecode
import Idealize.ShloMosaic.Adequacy
import Idealize.ShloMosaic.Init

noncomputable section

namespace Cert.Proof

open Idealize.ShloMosaic Idealize.ShloMosaic.TcCoe Idealize.SL.Sem

/-- The word-level tiled program runs and leaves its arguments alone. -/
theorem frame_k : Cert.frame_Kernel := fun m ρ _ => Cert.Kernel.Gen.frame m ρ

/-- So does the tiled program read on the extended reals. -/
theorem frame_ki : Cert.frame_KernelIdeal := fun m ρ _ => Cert.KernelIdeal.Gen.frame m ρ

/-- So does the plain program: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- Where every source word names a node, the tiled program ends with its result array at the layer function of its
    arguments, the arguments unchanged. -/
theorem kernel_run (m : (ℓ : Loc Cert.KernelIdeal.nD Cert.KernelIdeal.τ Cert.KernelIdeal.sig) → Buf (Elt Ideal) ℓ)
    (ρ : Dev Cert.KernelIdeal.nD → PrngReg)
    (hI : ∀ c : Dev Cert.KernelIdeal.nD,
      Cert.Layer.SrcInRange (m ((c.tc : Thread Cert.KernelIdeal.nD Cert.KernelIdeal.τ).loc Cert.KernelIdeal.main_arg2))) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v21)
          = Cert.Layer.layer (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
              (Cert.Layer.srcVec (m ((c.tc : Thread Cert.KernelIdeal.nD Cert.KernelIdeal.τ).loc Cert.KernelIdeal.main_arg2)))
              (Cert.Layer.dstVec (m ((c.tc : Thread Cert.KernelIdeal.nD Cert.KernelIdeal.τ).loc Cert.KernelIdeal.main_arg2)))
              (m ((c.tc : Thread Cert.KernelIdeal.nD Cert.KernelIdeal.τ).loc Cert.KernelIdeal.main_arg3))
              (m ((c.tc : Thread Cert.KernelIdeal.nD Cert.KernelIdeal.τ).loc Cert.KernelIdeal.main_arg4))
              (m ((c.tc : Thread Cert.KernelIdeal.nD Cert.KernelIdeal.τ).loc Cert.KernelIdeal.main_arg5))
              (m ((c.tc : Thread Cert.KernelIdeal.nD Cert.KernelIdeal.τ).loc Cert.KernelIdeal.main_arg6))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)) :=
  (θ_run Cert.KernelIdeal.defs _ _).mono
    (fun r h c => ⟨(h c).1.trans (Cert.KernelIdeal.KernelValue.result_eq m ρ c (hI c)), (h c).2⟩)
    (Cert.KernelIdeal.GenRun.run m ρ)

/-- From memories agreeing on the arguments, both programs end with the layer function of the arguments. -/
theorem algebraic : Cert.algebraic_KernelIdeal_ReferenceIdeal := by
  intro m ρ m' ρ' hpre hagree
  have hI : ∀ c : Dev Cert.KernelIdeal.nD,
      Cert.Layer.SrcInRange (m ((c.tc : Thread Cert.KernelIdeal.nD Cert.KernelIdeal.τ).loc Cert.KernelIdeal.main_arg2)) :=
    fun c => Cert.PreDecode.srcInRange_of_fn _ _ _ _ _ _ _ (hpre c)
  refine ⟨_, kernel_run m ρ hI, ?_⟩
  refine (θ_run Cert.ReferenceIdeal.defs _ _).mono (fun r h c => ⟨(h c).1.trans ?_, (h c).2⟩)
    (Cert.ReferenceIdeal.Value.run (F := Ideal) m' ρ')
  obtain ⟨e0, e1, e2, e3, e4, e5, e6⟩ := hagree c
  have hI' : Cert.Layer.SrcInRange (m' ((c.tc : Thread Cert.ReferenceIdeal.nD Cert.ReferenceIdeal.τ).loc Cert.ReferenceIdeal.main_arg2)) := by
    rw [e2]; exact hI c
  refine (Cert.ReferenceIdeal.Read.val_main_v25_eq _ _ _ _ _ _ _).trans ?_
  refine (Cert.ReferenceIdeal.RefValue.ref_eq _ _ _ _ _ _ _ hI').trans ?_
  rw [e0, e1, e2, e3, e4, e5, e6]

end Cert.Proof

/-- Every claim of the certificate, under the programs' stated side conditions. -/
theorem Cert.Proof.claim : Cert.Claim :=
  ⟨Cert.Kernel.Gen.facts, Cert.KernelIdeal.Gen.facts, Cert.ReferenceIdeal.Gen.facts, Cert.Pre_finite_inputs.Gen.facts,
    Cert.Proof.frame_k, Cert.Proof.frame_ki, Cert.Proof.frame_ri, Cert.Proof.preserves, Cert.Proof.algebraic⟩

end
